-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S1024 : Shape := ⟨1, ![1024]⟩
abbrev S100000x256 : Shape := ⟨2, ![100000, 256]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S100000x256 : S_.BroadcastsInDim S100000x256 (![] : Fin 0 → Fin S100000x256.rank)
  reducesTo_S100000x256_S_d0_1 : S100000x256.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1024x256 .f32) (main_arg1 : IVec S1024 32) (main_arg2 : FVec F S100000x256 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S100000x256 .f32 := Host.absf main_arg2
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_c_2 : IVec S_ 32 := constantI S_ 32 0#32
  let main_v9 : IVec S1024 32 := broadcastInDim S1024 ![] bcast_S_S1024 main_c_2
  let main_v10 : IVec S1024 1 := cmpi .sge main_arg1 main_v9
  let main_c_3 : IVec S_ 32 := constantI S_ 32 100000#32
  let main_v11 : IVec S1024 32 := broadcastInDim S1024 ![] bcast_S_S1024 main_c_3
  let main_v12 : IVec S1024 1 := cmpi .slt main_arg1 main_v11
  let main_v13 : IVec S1024 1 := andi main_v10 main_v12
  let main_c_4 : IVec S_ 1 := constantI S_ 1 1#1
  let main_v14 : IVec S_ 1 := (fun x v => Host.reduce IntOp.andi x v reducesTo_S1024_S_d0 h_S_) main_v13 main_c_4
  let main_v15 : IVec S_ 1 := andi main_v8 main_v14
  main_v15
-- ==== Kernel.lean ====
abbrev S1024x256 : Shape := ⟨2, ![1024, 256]⟩
abbrev S1024 : Shape := ⟨1, ![1024]⟩
abbrev S100000x256 : Shape := ⟨2, ![100000, 256]⟩
abbrev S_ : Shape := ⟨0, ![]⟩
abbrev S1024x1 : Shape := ⟨2, ![1024, 1]⟩
abbrev S1024x100000 : Shape := ⟨2, ![1024, 100000]⟩
abbrev S1536x256 : Shape := ⟨2, ![1536, 256]⟩
abbrev S1024x1536 : Shape := ⟨2, ![1024, 1536]⟩
abbrev S1536 : Shape := ⟨1, ![1536]⟩
abbrev S1536x1 : Shape := ⟨2, ![1536, 1]⟩

abbrev nBuf : Space → Nat
  | .hbm => 64
  | .vmem => 7
  | .smem => 0
  | _ => 0

abbrev bufTy : (tb : Table) → Fin (tcTables nBuf tb) → BufTy
  | .hbm, ⟨0, _⟩ => ⟨S1024x256, .f32⟩
  | .hbm, ⟨1, _⟩ => ⟨S1024, .i32⟩
  | .hbm, ⟨2, _⟩ => ⟨S100000x256, .f32⟩
  | .hbm, ⟨3, _⟩ => ⟨S1024x256, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S1024x256, .f32⟩
  | .hbm, ⟨12, _⟩ => ⟨S1024x256, .f32⟩
  | .hbm, ⟨13, _⟩ => ⟨S_, .f32⟩
  | .hbm, ⟨14, _⟩ => ⟨S1024x256, .f32⟩
  | .hbm, ⟨15, _⟩ => ⟨S1024x256, .f32⟩
  | .hbm, ⟨16, _⟩ => ⟨S1024x256, .bf16⟩
  | .hbm, ⟨17, _⟩ => ⟨S_, .i32⟩
  | .hbm, ⟨18, _⟩ => ⟨S1024, .i32⟩
  | .hbm, ⟨19, _⟩ => ⟨S1024, .i1⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S1024, .i32⟩
  | .hbm, ⟨24, _⟩ => ⟨S1024x1, .i32⟩
  | .hbm, ⟨25, _⟩ => ⟨S1024x256, .f32⟩
  | .hbm, ⟨26, _⟩ => ⟨S1024x256, .f32⟩
  | .hbm, ⟨27, _⟩ => ⟨S_, .f32⟩
  | .hbm, ⟨28, _⟩ => ⟨S1024, .f32⟩
  | .hbm, ⟨29, _⟩ => ⟨S1024x1, .f32⟩
  | .hbm, ⟨30, _⟩ => ⟨S1024x1, .f32⟩
  | .hbm, ⟨31, _⟩ => ⟨S_, .f32⟩
  | .hbm, ⟨32, _⟩ => ⟨S1024x1, .f32⟩
  | .hbm, ⟨33, _⟩ => ⟨S1024x1, .f32⟩
  | .hbm, ⟨34, _⟩ => ⟨S1024x256, .f32⟩
  | .hbm, ⟨35, _⟩ => ⟨S1024x256, .f32⟩
  | .hbm, ⟨36, _⟩ => ⟨S1024x256, .f32⟩
  | .hbm, ⟨37, _⟩ => ⟨S_, .f32⟩
  | .hbm, ⟨38, _⟩ => ⟨S1024, .f32⟩
  | .hbm, ⟨39, _⟩ => ⟨S1024, .f32⟩
  | .hbm, ⟨40, _⟩ => ⟨S_, .f32⟩
  | .hbm, ⟨41, _⟩ => ⟨S1024, .f32⟩
  | .hbm, ⟨42, _⟩ => ⟨S1024, .f32⟩
  | .hbm, ⟨43, _⟩ => ⟨S_, .f32⟩
  | .hbm, ⟨44, _⟩ => ⟨S1024, .f32⟩
  | .hbm, ⟨45, _⟩ => ⟨S1024, .f32⟩
  | .hbm, ⟨46, _⟩ => ⟨S1024, .f32⟩
  | .hbm, ⟨47, _⟩ => ⟨S_, .f32⟩
  | .hbm, ⟨48, _⟩ => ⟨S1024, .f32⟩
  | .hbm, ⟨49, _⟩ => ⟨S1024, .f32⟩
  | .hbm, ⟨50, _⟩ => ⟨S_, .f32⟩
  | .hbm, ⟨51, _⟩ => ⟨S1024, .f32⟩
  | .hbm, ⟨52, _⟩ => ⟨S1024, .f32⟩
  | .hbm, ⟨53, _⟩ => ⟨S1024, .f32⟩
  | .hbm, ⟨54, _⟩ => ⟨S_, .f32⟩
  | .hbm, ⟨55, _⟩ => ⟨S1024, .f32⟩
  | .hbm, ⟨56, _⟩ => ⟨S1024, .i1⟩
  | .hbm, ⟨57, _⟩ => ⟨S1024, .f32⟩
  | .hbm, ⟨58, _⟩ => ⟨S_, .f32⟩
  | .hbm, ⟨59, _⟩ => ⟨S1024, .f32⟩
  | .hbm, ⟨60, _⟩ => ⟨S1024, .f32⟩
  | .hbm, ⟨61, _⟩ => ⟨S1024x1, .f32⟩
  | .hbm, ⟨62, _⟩ => ⟨S1024x1, .i32⟩
  | .hbm, ⟨63, _⟩ => ⟨S1024x100000, .f32⟩
  | .local _ .vmem, ⟨0, _⟩ => ⟨S1024x256, .bf16⟩
  | .local _ .vmem, ⟨1, _⟩ => ⟨S1536x256, .f32⟩
  | .local _ .vmem, ⟨2, _⟩ => ⟨S1536x256, .f32⟩
  | .local _ .vmem, ⟨3, _⟩ => ⟨S1024x1, .i32⟩
  | .local _ .vmem, ⟨4, _⟩ => ⟨S1024x1, .f32⟩
  | .local _ .vmem, ⟨5, _⟩ => ⟨S1024x1536, .f32⟩
  | .local _ .vmem, ⟨6, _⟩ => ⟨S1024x1536, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_10 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_11 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1536x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S1024x256_S1024_d1 : S1024x256.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x256_0_1 : S1024x1.BroadcastsInDim S1024x256 (![0, 1] : Fin 2 → Fin S1024x256.rank)
  bcast_S_S1024x256 : S_.BroadcastsInDim S1024x256 (![] : Fin 0 → Fin S1024x256.rank)
  bitsLt_bf16_f32 : FTy.bits .bf16 < FTy.bits .f32
  bcast_S_S1024 : S_.BroadcastsInDim S1024 (![] : Fin 0 → Fin S1024.rank)
  shapeCasts_S1024_S1024x1 : S1024.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1536x256_S1536x256_0_0 : ∀ a, (![0, 0] : Fin 2 → Nat) a + S1536x256.size a ≤ S1536x256.size a
  h_S1536x256 : 0 < S1536x256.numel
  reduces_S1536x256_S1536 : S1536x256.Reduces [1] S1536
  shapeCasts_S1536_S1536x1 : S1536.ShapeCasts S1536x1
  broadcasts_S1536x1_S1536x256 : S1536x1.Broadcasts S1536x256
  iota_S1024x1536_d1_w32 : S1024x1536.Iotas .tc 32 [1]
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1536 : S1024x1.Broadcasts S1024x1536
  inb_S1024x1536_S1024x1536_0_0 : ∀ a, (![0, 0] : Fin 2 → Nat) a + S1024x1536.size a ≤ S1024x1536.size a
  h_S1024x1536 : 0 < S1024x1536.numel
  gather_S100000x256_S1024x1_S1024x256_1_0_n_n_0_1_1256_wf : GatherDims.WF S100000x256 S1024x1 S1024x256 [1] [0] [] [0] [] 1 ![1, 256]
  dot_S1024x256_S1536x256_S1024x1536_1_1_0_0_n_n_wf : DotDims.WF S1024x256 S1536x256 S1024x1536 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S1024x256.size a
  hwx0_0 : ∀ i : grid0.Coords, EltTy.bits .bf16 = 32 ∨ (Rect.block (s := S1024x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1536x256.size a < S100000x256.size a
  hwx0_1 : ∀ i : grid0.Coords, EltTy.bits .f32 = 32 ∨ (Rect.unit (s := S100000x256) (fun a => cc0_transform_1 i a * S1536x256.size a) (fun a => (Pipeline.Clip.of (cc0_transform_1 i a) (S1536x256.size a) (S100000x256.size a)).extent (S1536x256.size a)) fun a => Pipeline.Clip.inb (Pipeline.Clip.ok_of (hstart0_1 i a))).WholeWords (EltTy.packing .f32)
  hwxs0_1 : ∀ i : grid0.Coords, EltTy.bits .f32 = 32 ∨ (Rect.unit (s := S1536x256) (fun _ => 0) (fun a => (Pipeline.Clip.of (cc0_transform_1 i a) (S1536x256.size a) (S100000x256.size a)).extent (S1536x256.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S1024x1.size a
  hwx0_2 : ∀ i : grid0.Coords, EltTy.bits .i32 = 32 ∨ (Rect.block (s := S1024x1) S1024x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S1024x1.size a
  hwx0_3 : ∀ i : grid0.Coords, EltTy.bits .f32 = 32 ∨ (Rect.block (s := S1024x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1024x1536.size a < S1024x100000.size a
  hwx0_4 : ∀ i : grid0.Coords, EltTy.bits .f32 = 32 ∨ (Rect.unit (s := S1024x100000) (fun a => cc0_transform_4 i a * S1024x1536.size a) (fun a => (Pipeline.Clip.of (cc0_transform_4 i a) (S1024x1536.size a) (S1024x100000.size a)).extent (S1024x1536.size a)) fun a => Pipeline.Clip.inb (Pipeline.Clip.ok_of (hstart0_4 i a))).WholeWords (EltTy.packing .f32)
  hwxs0_4 : ∀ i : grid0.Coords, EltTy.bits .f32 = 32 ∨ (Rect.unit (s := S1024x1536) (fun _ => 0) (fun a => (Pipeline.Clip.of (cc0_transform_4 i a) (S1024x1536.size a) (S1024x100000.size a)).extent (S1024x1536.size a)) fun a => (Nat.zero_add _).trans_le (Pipeline.Clip.extent_le (Pipeline.Clip.ok_of (hstart0_4 i a)))).WholeWords (EltTy.packing .f32)

variable [Facts₀]

def gather_S100000x256_S1024x1_S1024x256_1_0_n_n_0_1_1256 : GatherDims S100000x256 S1024x1 S1024x256 where
  offsetDims := [1]
  collapsedSliceDims := [0]
  operandBatchingDims := []
  startIndicesBatchingDims := []
  startIndexMap := [0]
  indexVectorDim := 1
  sliceSizes := ![1, 256]
  wf := gather_S100000x256_S1024x1_S1024x256_1_0_n_n_0_1_1256_wf
def dot_S1024x256_S1536x256_S1024x1536_1_1_0_0_n_n : DotDims S1024x256 S1536x256 S1024x1536 where
  lhsContracting := [1]
  rhsContracting := [1]
  lhsNonContracting := [0]
  rhsNonContracting := [0]
  lhsBatch := []
  rhsBatch := []
  wf := dot_S1024x256_S1536x256_S1024x1536_1_1_0_0_n_n_wf

abbrev win0_0 : Pipeline.Window sig grid0 :=
  Pipeline.Window.ofSpec (Memref.whole main_v10) S1024x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg2) S1536x256.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v45) S1024x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v44) S1024x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v46) S1024x1536.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x256 : Shape := ⟨2, ![1024, 256]⟩
abbrev S1024 : Shape := ⟨1, ![1024]⟩
abbrev S100000x256 : Shape := ⟨2, ![100000, 256]⟩
abbrev S_ : Shape := ⟨0, ![]⟩
abbrev S1024x1 : Shape := ⟨2, ![1024, 1]⟩
abbrev S100000 : Shape := ⟨1, ![100000]⟩
abbrev S100000x1 : Shape := ⟨2, ![100000, 1]⟩
abbrev S256x100000 : Shape := ⟨2, ![256, 100000]⟩
abbrev S1024x100000 : Shape := ⟨2, ![1024, 100000]⟩
abbrev S1024x1x1 : Shape := ⟨3, ![1024, 1, 1]⟩
abbrev S1 : Shape := ⟨1, ![1]⟩
abbrev S1x1x1 : Shape := ⟨3, ![1, 1, 1]⟩
abbrev S1024x2 : Shape := ⟨2, ![1024, 2]⟩

abbrev nBuf : Space → Nat
  | .hbm => 87
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024, .i32⟩
  | .hbm, ⟨2, _⟩ => ⟨S100000x256, .f32⟩
  | .hbm, ⟨3, _⟩ => ⟨S1024x256, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S1024x256, .f32⟩
  | .hbm, ⟨12, _⟩ => ⟨S1024x256, .f32⟩
  | .hbm, ⟨13, _⟩ => ⟨S100000x256, .f32⟩
  | .hbm, ⟨14, _⟩ => ⟨S_, .f32⟩
  | .hbm, ⟨15, _⟩ => ⟨S100000, .f32⟩
  | .hbm, ⟨16, _⟩ => ⟨S100000x1, .f32⟩
  | .hbm, ⟨17, _⟩ => ⟨S100000x1, .f32⟩
  | .hbm, ⟨18, _⟩ => ⟨S_, .f32⟩
  | .hbm, ⟨19, _⟩ => ⟨S100000x1, .f32⟩
  | .hbm, ⟨20, _⟩ => ⟨S100000x1, .f32⟩
  | .hbm, ⟨21, _⟩ => ⟨S100000x256, .f32⟩
  | .hbm, ⟨22, _⟩ => ⟨S100000x256, .f32⟩
  | .hbm, ⟨23, _⟩ => ⟨S256x100000, .f32⟩
  | .hbm, ⟨24, _⟩ => ⟨S1024x100000, .f32⟩
  | .hbm, ⟨25, _⟩ => ⟨S1024x1, .i32⟩
  | .hbm, ⟨26, _⟩ => ⟨S_, .i32⟩
  | .hbm, ⟨27, _⟩ => ⟨S1024x1, .i32⟩
  | .hbm, ⟨28, _⟩ => ⟨S1024x1, .i1⟩
  | .hbm, ⟨29, _⟩ => ⟨S_, .i32⟩
  | .hbm, ⟨30, _⟩ => ⟨S1024x1, .i32⟩
  | .hbm, ⟨31, _⟩ => ⟨S1024x1, .i32⟩
  | .hbm, ⟨32, _⟩ => ⟨S1024x1, .i32⟩
  | .hbm, ⟨33, _⟩ => ⟨S1024x1x1, .i32⟩
  | .hbm, ⟨34, _⟩ => ⟨S1, .i32⟩
  | .hbm, ⟨35, _⟩ => ⟨S_, .i32⟩
  | .hbm, ⟨36, _⟩ => ⟨S1024x1x1, .i32⟩
  | .hbm, ⟨37, _⟩ => ⟨S1024x1x1, .i1⟩
  | .hbm, ⟨38, _⟩ => ⟨S1x1x1, .i32⟩
  | .hbm, ⟨39, _⟩ => ⟨S1024x1x1, .i32⟩
  | .hbm, ⟨40, _⟩ => ⟨S1024x1x1, .i1⟩
  | .hbm, ⟨41, _⟩ => ⟨S1024x1x1, .i1⟩
  | .hbm, ⟨42, _⟩ => ⟨S_, .i1⟩
  | .hbm, ⟨43, _⟩ => ⟨S1024x1, .i1⟩
  | .hbm, ⟨44, _⟩ => ⟨S1024x1, .f32⟩
  | .hbm, ⟨45, _⟩ => ⟨S_, .f32⟩
  | .hbm, ⟨46, _⟩ => ⟨S1024x1, .f32⟩
  | .hbm, ⟨47, _⟩ => ⟨S1024x1, .f32⟩
  | .hbm, ⟨48, _⟩ => ⟨S1024, .f32⟩
  | .hbm, ⟨49, _⟩ => ⟨S1024, .f32⟩
  | .hbm, ⟨50, _⟩ => ⟨S_, .f32⟩
  | .hbm, ⟨51, _⟩ => ⟨S1024, .f32⟩
  | .hbm, ⟨52, _⟩ => ⟨S1024, .f32⟩
  | .hbm, ⟨53, _⟩ => ⟨S1024, .f32⟩
  | .hbm, ⟨54, _⟩ => ⟨S_, .f32⟩
  | .hbm, ⟨55, _⟩ => ⟨S1024, .f32⟩
  | .hbm, ⟨56, _⟩ => ⟨S1024, .f32⟩
  | .hbm, ⟨57, _⟩ => ⟨S_, .f32⟩
  | .hbm, ⟨58, _⟩ => ⟨S1024, .f32⟩
  | .hbm, ⟨59, _⟩ => ⟨S1024, .f32⟩
  | .hbm, ⟨60, _⟩ => ⟨S1024, .f32⟩
  | .hbm, ⟨61, _⟩ => ⟨S_, .f32⟩
  | .hbm, ⟨62, _⟩ => ⟨S1024, .f32⟩
  | .hbm, ⟨63, _⟩ => ⟨S1024, .i1⟩
  | .hbm, ⟨64, _⟩ => ⟨S1024, .f32⟩
  | .hbm, ⟨65, _⟩ => ⟨S1024, .i32⟩
  | .hbm, ⟨66, _⟩ => ⟨S_, .i32⟩
  | .hbm, ⟨67, _⟩ => ⟨S1024, .i32⟩
  | .hbm, ⟨68, _⟩ => ⟨S1024, .i1⟩
  | .hbm, ⟨69, _⟩ => ⟨S_, .i32⟩
  | .hbm, ⟨70, _⟩ => ⟨S1024, .i32⟩
  | .hbm, ⟨71, _⟩ => ⟨S1024, .i32⟩
  | .hbm, ⟨72, _⟩ => ⟨S1024, .i32⟩
  | .hbm, ⟨73, _⟩ => ⟨S_, .i32⟩
  | .hbm, ⟨74, _⟩ => ⟨S1024, .i32⟩
  | .hbm, ⟨75, _⟩ => ⟨S1024, .i1⟩
  | .hbm, ⟨76, _⟩ => ⟨S_, .i32⟩
  | .hbm, ⟨77, _⟩ => ⟨S1024, .i32⟩
  | .hbm, ⟨78, _⟩ => ⟨S1024, .i32⟩
  | .hbm, ⟨79, _⟩ => ⟨S1024, .i32⟩
  | .hbm, ⟨80, _⟩ => ⟨S1024x1, .i32⟩
  | .hbm, ⟨81, _⟩ => ⟨S1024x1, .i32⟩
  | .hbm, ⟨82, _⟩ => ⟨S1024x2, .i32⟩
  | .hbm, ⟨83, _⟩ => ⟨S1024x100000, .f32⟩
  | .hbm, ⟨84, _⟩ => ⟨S_, .f32⟩
  | .hbm, ⟨85, _⟩ => ⟨S1024x100000, .f32⟩
  | .hbm, ⟨86, _⟩ => ⟨S1024x100000, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_cst : Ref sig .tc := ⟨.hbm, 45, rfl⟩
abbrev main_call0_v14 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_3 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_4 : Ref sig .tc := ⟨.hbm, 54, rfl⟩
abbrev main_v25 : Ref sig .tc := ⟨.hbm, 55, rfl⟩
abbrev main_v26 : Ref sig .tc := ⟨.hbm, 56, rfl⟩
abbrev main_cst_5 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst_6 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_c : Ref sig .tc := ⟨.hbm, 66, rfl⟩
abbrev main_v34 : Ref sig .tc := ⟨.hbm, 67, rfl⟩
abbrev main_v35 : Ref sig .tc := ⟨.hbm, 68, rfl⟩
abbrev main_c_7 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_c_8 : Ref sig .tc := ⟨.hbm, 73, rfl⟩
abbrev main_v39 : Ref sig .tc := ⟨.hbm, 74, rfl⟩
abbrev main_v40 : Ref sig .tc := ⟨.hbm, 75, rfl⟩
abbrev main_c_9 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_cst_10 : Ref sig .tc := ⟨.hbm, 84, rfl⟩
abbrev main_v48 : Ref sig .tc := ⟨.hbm, 85, rfl⟩
abbrev main_v49 : Ref sig .tc := ⟨.hbm, 86, rfl⟩

abbrev nD : Nat := 1
abbrev τ : Topo := Topo.v7x

variable {F : FTy → Type} [FloatOps F]

class Facts₀ : Prop where
  reducesTo_S1024x256_S1024_d1 : S1024x256.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x256_0_1 : S1024x1.BroadcastsInDim S1024x256 (![0, 1] : Fin 2 → Fin S1024x256.rank)
  reducesTo_S100000x256_S100000_d1 : S100000x256.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x256_0_1 : S100000x1.BroadcastsInDim S100000x256 (![0, 1] : Fin 2 → Fin S100000x256.rank)
  transposes_S100000x256_S256x100000_1_0 : S100000x256.Transposes [1, 0] S256x100000
  shapeCasts_S1024x1_S1024x1x1 : S1024x1.ShapeCasts S1024x1x1
  bcast_S_S1024x1x1 : S_.BroadcastsInDim S1024x1x1 (![] : Fin 0 → Fin S1024x1x1.rank)
  bcast_S1_S1x1x1_2 : S1.BroadcastsInDim S1x1x1 (![2] : Fin 1 → Fin S1x1x1.rank)
  bcast_S1x1x1_S1024x1x1_0_1_2 : S1x1x1.BroadcastsInDim S1024x1x1 (![0, 1, 2] : Fin 3 → Fin S1024x1x1.rank)
  reducesTo_S1024x1x1_S1024x1_d2 : S1024x1x1.ReducesTo [2] S1024x1
  shapeCasts_S1024x1_S1024 : S1024x1.ShapeCasts S1024
  bcast_S_S1024 : S_.BroadcastsInDim S1024 (![] : Fin 0 → Fin S1024.rank)
  concatenates_S1024x1_S1024x1_S1024x2_d1 : Shape.Concatenates [S1024x1, S1024x1] S1024x2 1
  bcast_S_S1024x100000 : S_.BroadcastsInDim S1024x100000 (![] : Fin 0 → Fin S1024x100000.rank)
  dot_S1024x256_S256x100000_S1024x100000_1_0_0_1_n_n_wf : DotDims.WF S1024x256 S256x100000 S1024x100000 [1] [0] [0] [1] [] []
  gather_S1024x100000_S1024x1x1_S1024x1_n_1_0_0_1_2_11_wf : GatherDims.WF S1024x100000 S1024x1x1 S1024x1 [] [1] [0] [1] [0] 2 ![1, 1]
  scatter_S1024x100000_S1024x2_S1024_n_01_01_1_wf : ScatterDims.WF S1024x100000 S1024x2 S1024 [] [0, 1] [0, 1] 1

variable [Facts₀]

def dot_S1024x256_S256x100000_S1024x100000_1_0_0_1_n_n : DotDims S1024x256 S256x100000 S1024x100000 where
  lhsContracting := [1]
  rhsContracting := [0]
  lhsNonContracting := [0]
  rhsNonContracting := [1]
  lhsBatch := []
  rhsBatch := []
  wf := dot_S1024x256_S256x100000_S1024x100000_1_0_0_1_n_n_wf
def gather_S1024x100000_S1024x1x1_S1024x1_n_1_0_0_1_2_11 : GatherDims S1024x100000 S1024x1x1 S1024x1 where
  offsetDims := []
  collapsedSliceDims := [1]
  operandBatchingDims := [0]
  startIndicesBatchingDims := [0]
  startIndexMap := [1]
  indexVectorDim := 2
  sliceSizes := ![1, 1]
  wf := gather_S1024x100000_S1024x1x1_S1024x1_n_1_0_0_1_2_11_wf
def scatter_S1024x100000_S1024x2_S1024_n_01_01_1 : ScatterDims S1024x100000 S1024x2 S1024 where
  updateWindowDims := []
  insertedWindowDims := [0, 1]
  scatterDimsToOperandDims := [0, 1]
  indexVectorDim := 1
  wf := scatter_S1024x100000_S1024x2_S1024_n_01_01_1_wf

class Facts : Prop extends Facts₀ where

variable [Facts]
-- ==== Proof.K.Body.lean ====
/-
  The kernel body on its five staging buffers, at any float instance: four whole-buffer loads (the scaled unit
  input, one tile of 1536 weight rows, the label column, the target column), one pure value of them, and one
  whole-buffer store of that value into the result's tile. So after the body the result's buffer holds exactly that
  value of what the four input buffers held, and the input buffers hold what they held.
-/
import proofs.«427160_j39676907888373_3_alg».proof.Proof.Gen.Kernel.Launch
import proofs.«427160_j39676907888373_3_alg».proof.Proof.Gen.Kernel.Skeleton
import proofs.«427160_j39676907888373_3_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: each the whole of its buffer -/

abbrev rX : Rect S1024x256 := Rect.unit (s := S1024x256) ![0, 0] S1024x256.size inb_S1024x256_S1024x256_0_0
abbrev rW : Rect S1536x256 := Rect.unit (s := S1536x256) ![0, 0] S1536x256.size inb_S1536x256_S1536x256_0_0
abbrev rC : Rect S1024x1 := Rect.unit (s := S1024x1) ![0, 0] S1024x1.size inb_S1024x1_S1024x1_0_0
abbrev rO : Rect S1024x1536 := Rect.unit (s := S1024x1536) ![0, 0] S1024x1536.size inb_S1024x1536_S1024x1536_0_0

/-! ## What the body leaves in the result's buffer -/

/-- The offsets `![0, 0]` are the zero offsets. -/
theorem zeros2 : (![0, 0] : Fin 2 → Nat) = fun _ => 0 := funext fun a => by fin_cases a <;> rfl

/-- The result tile after the body at grid coordinates `i`, from what the four input buffers hold: its one store, of
    the body's value of the four loads. -/
def outTile (i : grid0.Coords) (x0 : Vec F S1024x256 .bf16) (x1 : Vec F S1536x256 .f32) (x2 : Vec F S1024x1 .i32) (x3 : Vec F S1024x1 .f32) :
    Vec F S1024x1536 .f32 :=
  View.canon [⟨rO, k0_pay1 i (View.ld x0 rX) (View.ld x1 rW) (View.ld x2 rC) (View.ld x3 rC)⟩]

/-- Every access is the whole buffer, so the tile IS the body's value of the buffers' contents. -/
theorem outTile_eq (i : grid0.Coords) (x0 : Vec F S1024x256 .bf16) (x1 : Vec F S1536x256 .f32) (x2 : Vec F S1024x1 .i32) (x3 : Vec F S1024x1 .f32) :
    outTile i x0 x1 x2 x3 = k0_pay1 i x0 x1 x2 x3 := by
  unfold outTile
  rw [View.canon_unit_zero zeros2]
  simp only [View.ld_unit_zero (S := S1024x256) zeros2, View.ld_unit_zero (S := S1536x256) zeros2,
    View.ld_unit_zero (S := S1024x1) zeros2]

/-- The one store is through the whole buffer, so it covers it. -/
theorem coverO (p0 : Vec F S1024x1536 .f32) (y : S1024x1536.Idx) :
    ∃ pc ∈ ([⟨rO, p0⟩] : List (View.Piece (Elt F) S1024x1536 .f32)), y ∈ pc.1.set :=
  ⟨_, List.mem_singleton_self _, View.mem_set_unit_zero (S := S1024x1536) zeros2 inb_S1024x1536_S1024x1536_0_0 y⟩

/-! ## The body's triple -/

set_option maxHeartbeats 1000000 in
/-- The kernel body on whole staging memrefs, the inputs' at contents `x0 … x3` and the result's at anything, runs to
    the continuation holding the inputs' as they were and the result's at `outTile` of them. -/
theorem sound_kernel (c : Dev nD) (E : Set ℕ) (i : grid0.Coords)
    (arg1 : Memref sig .tc .vmem S1024x256 .bf16) (harg1 : arg1.IsWhole) (arg2 : Memref sig .tc .vmem S1536x256 .f32) (harg2 : arg2.IsWhole)
    (arg3 : Memref sig .tc .vmem S1024x1 .i32) (harg3 : arg3.IsWhole) (arg4 : Memref sig .tc .vmem S1024x1 .f32) (harg4 : arg4.IsWhole)
    (arg5 : Memref sig .tc .vmem S1024x1536 .f32) (harg5 : arg5.IsWhole)
    (x0 : Vec F S1024x256 .bf16) (x1 : Vec F S1536x256 .f32) (x2 : Vec F S1024x1 .i32) (x3 : Vec F S1024x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outTile i x0 x1 x2 x3)) -∗ K ⟨⟩))
      ⊢ wp frame (wpE (defs₀ (F := F)) Variants.none c none) E
          (cc0_aamsoftmax_kernel i arg1 harg1 arg2 harg2 arg3 harg3 arg4 harg4 arg5 harg5) K := by
  simp only [cc0_aamsoftmax_kernel_eq_skeleton]; unfold cc0_aamsoftmax_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverO _)

end Cert.Kernel.Body

end
-- ==== Proof.K.Frame.lean ====
/-
  The launch of the one pallas_call, at any float instance: the pipeline's proof data, the body's obligation, and the
  frame — the program runs to its end on every weakly fair schedule, faults nowhere and leaves its three arguments
  as it found them.

  The grid has 66 steps over tiles of 1536 classes, and 66 · 1536 = 101376 exceeds the 100000 classes: the last
  weight tile and the last result tile overhang their arrays by 1376 rows, respectively columns. The fetch of the
  last weight tile lands only its 160 rows inside the array; what the rest of that staging buffer holds is not
  named, so the proof data state the buffer as the tile's part inside the array filled out with an arbitrary word,
  and the body's obligation speaks of each such buffer only on the part its transfers move. The write-back of the
  last result tile writes only its 160 columns inside the array. The scaled input, the label column and the target
  column are whole arrays fetched once, before the first step.

  For the frame nothing is read from the result array, so its window is left unnamed here: the body is handed
  the result's buffer at any contents and hands it back at any contents.
-/
import proofs.«427160_j39676907888373_3_alg».proof.Proof.K.Body
import proofs.«427160_j39676907888373_3_alg».proof.Proof.Gen.Kernel.Frame

set_option maxRecDepth 16384

noncomputable section

namespace Cert.Kernel.FrameData

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The weight tile at step `t` as a whole 1536 × 256 buffer: its rows inside the array, filled out past the array's
    end with the zero word (nothing reads the filler). -/
def wtile (c : Dev nD) (t : Fin cfg0.N) : S1536x256.Idx → Elt F .f32 :=
  win0_1.fill (grid0.coords t) (fun _ => Scalar.ofBits .f32 0#32) (iblk m c 1 t)

/-- The result tile the body leaves at step `t`: the body's value of the four input buffers. -/
def otile (c : Dev nD) (t : Fin cfg0.N) : S1024x1536.Idx → Elt F .f32 :=
  outTile (grid0.coords t) (iblk m c 0 t) (wtile m c t) (iblk m c 2 t) (iblk m c 3 t)

/-- The proof data of the pipeline on core `c`: the arrays as the region finds them; after the body each input's
    buffer at its block (the weights' filled out) and the result's at the body's value; the class invariant; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wtile m c t
    | ⟨2, _⟩ => iblk m c 2 t
    | ⟨3, _⟩ => iblk m c 3 t
    | ⟨4, _⟩ => otile m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = wtile m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = otile m c t := by dsimp only [dats]

/-! ## What the body finds in each buffer -/

/-- The three whole-array inputs: their block, fetched at the first step and left in place by the body. -/
theorem before0_0 (c : Dev nD) (t : Fin cfg0.N) (d) : (dats m 0 c).before 0 t d = iblk m c 0 t :=
  before0_0_of m (dats m 0 c) (A_eq m c 0) (after0_0 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The weight tile, fetched at every step: its rows inside the array, and `d` past the array's end. -/
theorem before0_1 (c : Dev nD) (t : Fin cfg0.N) (d) :
    (dats m 0 c).before 1 t d = win0_1.fill (grid0.coords t) d (iblk m c 1 t) := by
  unfold Dat.before; rw [if_pos (fetch0_1 t)]; rfl

/-- The result's buffer, written back at every step: contents nothing names. -/
theorem before0_4 (c : Dev nD) (t : Fin cfg0.N) (d) : (dats m 0 c).before 4 t d = d :=
  (dats m 0 c).before_out_reset 4 rfl t
    (by by_cases h : t.val = 0
        · exact .inl h
        · exact .inr ⟨h, flush0_4 _⟩) d

/-! ## The body's obligation, the result's window unnamed -/

/-- The windows whose buffer the obligation does not describe: the result's. -/
def fgt : Fin cfg0.W → Bool := fun w => w.val == 4

theorem fgt_0 : fgt 0 = false := rfl
theorem fgt_1 : fgt 1 = false := rfl
theorem fgt_2 : fgt 2 = false := rfl
theorem fgt_3 : fgt 3 = false := rfl
theorem fgt_4 : fgt 4 = true := rfl

/-- At every step the body runs from the four input buffers at what the pipeline left in them and the result's at
    anything, and hands the inputs back unchanged — the weight tile's buffer described on its rows inside the array —
    and the result's at something. -/
theorem body_obligation_fgt (c : Dev nD) :
    BodyObligationLoose (dats (F := F) m 0 c) (defs₀ (F := F)) Variants.none () Set.univ fgt := fun t => by
  rw [bigSep_W0, bigSep_W0]
  simp only [fgt_0, fgt_1, fgt_2, fgt_3, fgt_4]
  change _ ⊢ wp frame (wpE (defs₀ (F := F)) Variants.none c none) Set.univ (bodyAt0 t) _
  unfold bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%X4, H4⟩⟩
  iapply (sound_kernel (F := F) c Set.univ (grid0.coords t) _ _ _ _ _ _ _ _ _ _
    (iblk m c 0 t) (win0_1.fill (grid0.coords t) d1 (iblk m c 1 t)) (iblk m c 2 t) (iblk m c 3 t) _)
  isplitl [H0]; · iexact H0
  isplitl [H1]; · iexact H1
  isplitl [H2]; · iexact H2
  isplitl [H3]; · iexact H3
  isplitl [H4]; · iexists X4; iexact H4
  iintro ⟨H0, H1, H2, H3, H4⟩
  isplitl [HΦ]; · iexact HΦ
  isplitl [Ho]; · iexact Ho
  isplitl [H0]; · rw [after0_0]; try iexact H0
  isplitl [H1]
  · iexists d1
    have hw : win0_1.cut (grid0.coords t) (wtile m c t) = iblk m c 1 t := win0_1.cut_fill _ _ _
    change _ ⊢ owns (c : Thread nD τ) (st0_1 t) fullShare
      (win0_1.fill (grid0.coords t) d1 (win0_1.cut (grid0.coords t) ((dats m 0 c).after 1 t)))
    rw [after0_1, hw]; try iexact H1
  isplitl [H2]; · rw [after0_2]; try iexact H2
  isplitl [H3]; · rw [after0_3]; try iexact H3
  iexists _; iexact H4

/-! ## The run and the frame -/

set_option backward.isDefEq.respectTransparency.types false in
/-- At the compiled mesh, for any values, from any memory with zero counters: every weakly fair execution of the
    program terminates; every input array of the pipeline ends as the region found it, and so does every other buffer
    the region does not stage. -/
theorem run_unnamed : θ_run defs (onTc (τ := τ) (main (F := F))) (s₀ m ρ)
    (Pipeline.RDat.FramePost cfg0 (fun c => (dats m 0 c).toRForget fgt) (V m)) :=
  Pipeline.RDat.θ_run_frame cfgs (0 : Fin 1) launch0 defs₀ Variants.none (fun c => (dats m 0 c).toRForget fgt) m ρ main
    (hbody := fun c => (body_obligation_fgt m c).toRForget)
    (hshare := fun c w => (dats m 0 c).share_full (fun _ => rfl) w) (howed := fun _ _ => rfl)
    (V := V m) (hmain := hmain m Variants.none) (hA := fun c w => A_eq m c w) (hΦ := fun _ _ => rfl)

/-- The frame: the three arguments end unchanged — the input and the labels because the region never stages them, the
    weights because a staged input array is never written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 1 rfl).trans ((A_eq m c 1).trans (V_main_arg2 m c))⟩) (run_unnamed m ρ)

end Cert.Kernel.FrameData

end
-- ==== Proof.KI.Body.lean ====
/-
  The kernel body on its five staging buffers, at any float instance: four whole-buffer loads (the scaled unit
  input, one tile of 1536 weight rows, the label column, the target column), one pure value of them, and one
  whole-buffer store of that value into the result's tile. So after the body the result's buffer holds exactly that
  value of what the four input buffers held, and the input buffers hold what they held.
-/
import proofs.«427160_j39676907888373_3_alg».proof.Proof.Gen.KernelIdeal.Launch
import proofs.«427160_j39676907888373_3_alg».proof.Proof.Gen.KernelIdeal.Skeleton
import proofs.«427160_j39676907888373_3_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's accesses: each the whole of its buffer -/

abbrev rX : Rect S1024x256 := Rect.unit (s := S1024x256) ![0, 0] S1024x256.size inb_S1024x256_S1024x256_0_0
abbrev rW : Rect S1536x256 := Rect.unit (s := S1536x256) ![0, 0] S1536x256.size inb_S1536x256_S1536x256_0_0
abbrev rC : Rect S1024x1 := Rect.unit (s := S1024x1) ![0, 0] S1024x1.size inb_S1024x1_S1024x1_0_0
abbrev rO : Rect S1024x1536 := Rect.unit (s := S1024x1536) ![0, 0] S1024x1536.size inb_S1024x1536_S1024x1536_0_0

/-! ## What the body leaves in the result's buffer -/

/-- The offsets `![0, 0]` are the zero offsets. -/
theorem zeros2 : (![0, 0] : Fin 2 → Nat) = fun _ => 0 := funext fun a => by fin_cases a <;> rfl

/-- The result tile after the body at grid coordinates `i`, from what the four input buffers hold: its one store, of
    the body's value of the four loads. -/
def outTile (i : grid0.Coords) (x0 : Vec F S1024x256 .bf16) (x1 : Vec F S1536x256 .f32) (x2 : Vec F S1024x1 .i32) (x3 : Vec F S1024x1 .f32) :
    Vec F S1024x1536 .f32 :=
  View.canon [⟨rO, k0_pay1 i (View.ld x0 rX) (View.ld x1 rW) (View.ld x2 rC) (View.ld x3 rC)⟩]

/-- Every access is the whole buffer, so the tile IS the body's value of the buffers' contents. -/
theorem outTile_eq (i : grid0.Coords) (x0 : Vec F S1024x256 .bf16) (x1 : Vec F S1536x256 .f32) (x2 : Vec F S1024x1 .i32) (x3 : Vec F S1024x1 .f32) :
    outTile i x0 x1 x2 x3 = k0_pay1 i x0 x1 x2 x3 := by
  unfold outTile
  rw [View.canon_unit_zero zeros2]
  simp only [View.ld_unit_zero (S := S1024x256) zeros2, View.ld_unit_zero (S := S1536x256) zeros2,
    View.ld_unit_zero (S := S1024x1) zeros2]

/-- The one store is through the whole buffer, so it covers it. -/
theorem coverO (p0 : Vec F S1024x1536 .f32) (y : S1024x1536.Idx) :
    ∃ pc ∈ ([⟨rO, p0⟩] : List (View.Piece (Elt F) S1024x1536 .f32)), y ∈ pc.1.set :=
  ⟨_, List.mem_singleton_self _, View.mem_set_unit_zero (S := S1024x1536) zeros2 inb_S1024x1536_S1024x1536_0_0 y⟩

/-! ## The body's triple -/

set_option maxHeartbeats 1000000 in
/-- The kernel body on whole staging memrefs, the inputs' at contents `x0 … x3` and the result's at anything, runs to
    the continuation holding the inputs' as they were and the result's at `outTile` of them. -/
theorem sound_kernel (c : Dev nD) (E : Set ℕ) (i : grid0.Coords)
    (arg1 : Memref sig .tc .vmem S1024x256 .bf16) (harg1 : arg1.IsWhole) (arg2 : Memref sig .tc .vmem S1536x256 .f32) (harg2 : arg2.IsWhole)
    (arg3 : Memref sig .tc .vmem S1024x1 .i32) (harg3 : arg3.IsWhole) (arg4 : Memref sig .tc .vmem S1024x1 .f32) (harg4 : arg4.IsWhole)
    (arg5 : Memref sig .tc .vmem S1024x1536 .f32) (harg5 : arg5.IsWhole)
    (x0 : Vec F S1024x256 .bf16) (x1 : Vec F S1536x256 .f32) (x2 : Vec F S1024x1 .i32) (x3 : Vec F S1024x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (outTile i x0 x1 x2 x3)) -∗ K ⟨⟩))
      ⊢ wp frame (wpE (defs₀ (F := F)) Variants.none c none) E
          (cc0_aamsoftmax_kernel i arg1 harg1 arg2 harg2 arg3 harg3 arg4 harg4 arg5 harg5) K := by
  simp only [cc0_aamsoftmax_kernel_eq_skeleton]; unfold cc0_aamsoftmax_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (coverO _)

end Cert.KernelIdeal.Body

end
-- ==== Proof.KI.Frame.lean ====
/-
  The launch of the one pallas_call, at any float instance: the pipeline's proof data, the body's obligation, and the
  frame — the program runs to its end on every weakly fair schedule, faults nowhere and leaves its three arguments
  as it found them.

  The grid has 66 steps over tiles of 1536 classes, and 66 · 1536 = 101376 exceeds the 100000 classes: the last
  weight tile and the last result tile overhang their arrays by 1376 rows, respectively columns. The fetch of the
  last weight tile lands only its 160 rows inside the array; what the rest of that staging buffer holds is not
  named, so the proof data state the buffer as the tile's part inside the array filled out with an arbitrary word,
  and the body's obligation speaks of each such buffer only on the part its transfers move. The write-back of the
  last result tile writes only its 160 columns inside the array. The scaled input, the label column and the target
  column are whole arrays fetched once, before the first step.

  For the frame nothing is read from the result array, so its window is left unnamed here: the body is handed
  the result's buffer at any contents and hands it back at any contents.
-/
import proofs.«427160_j39676907888373_3_alg».proof.Proof.KI.Body
import proofs.«427160_j39676907888373_3_alg».proof.Proof.Gen.KernelIdeal.Frame

set_option maxRecDepth 16384

noncomputable section

namespace Cert.KernelIdeal.FrameData

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The proof data -/

/-- The weight tile at step `t` as a whole 1536 × 256 buffer: its rows inside the array, filled out past the array's
    end with the zero word (nothing reads the filler). -/
def wtile (c : Dev nD) (t : Fin cfg0.N) : S1536x256.Idx → Elt F .f32 :=
  win0_1.fill (grid0.coords t) (fun _ => Scalar.ofBits .f32 0#32) (iblk m c 1 t)

/-- The result tile the body leaves at step `t`: the body's value of the four input buffers. -/
def otile (c : Dev nD) (t : Fin cfg0.N) : S1024x1536.Idx → Elt F .f32 :=
  outTile (grid0.coords t) (iblk m c 0 t) (wtile m c t) (iblk m c 2 t) (iblk m c 3 t)

/-- The proof data of the pipeline on core `c`: the arrays as the region finds them; after the body each input's
    buffer at its block (the weights' filled out) and the result's at the body's value; the class invariant; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wtile m c t
    | ⟨2, _⟩ => iblk m c 2 t
    | ⟨3, _⟩ => iblk m c 3 t
    | ⟨4, _⟩ => otile m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = wtile m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = otile m c t := by dsimp only [dats]

/-! ## What the body finds in each buffer -/

/-- The three whole-array inputs: their block, fetched at the first step and left in place by the body. -/
theorem before0_0 (c : Dev nD) (t : Fin cfg0.N) (d) : (dats m 0 c).before 0 t d = iblk m c 0 t :=
  before0_0_of m (dats m 0 c) (A_eq m c 0) (after0_0 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The weight tile, fetched at every step: its rows inside the array, and `d` past the array's end. -/
theorem before0_1 (c : Dev nD) (t : Fin cfg0.N) (d) :
    (dats m 0 c).before 1 t d = win0_1.fill (grid0.coords t) d (iblk m c 1 t) := by
  unfold Dat.before; rw [if_pos (fetch0_1 t)]; rfl

/-- The result's buffer, written back at every step: contents nothing names. -/
theorem before0_4 (c : Dev nD) (t : Fin cfg0.N) (d) : (dats m 0 c).before 4 t d = d :=
  (dats m 0 c).before_out_reset 4 rfl t
    (by by_cases h : t.val = 0
        · exact .inl h
        · exact .inr ⟨h, flush0_4 _⟩) d

/-! ## The body's obligation, the result's window unnamed -/

/-- The windows whose buffer the obligation does not describe: the result's. -/
def fgt : Fin cfg0.W → Bool := fun w => w.val == 4

theorem fgt_0 : fgt 0 = false := rfl
theorem fgt_1 : fgt 1 = false := rfl
theorem fgt_2 : fgt 2 = false := rfl
theorem fgt_3 : fgt 3 = false := rfl
theorem fgt_4 : fgt 4 = true := rfl

/-- At every step the body runs from the four input buffers at what the pipeline left in them and the result's at
    anything, and hands the inputs back unchanged — the weight tile's buffer described on its rows inside the array —
    and the result's at something. -/
theorem body_obligation_fgt (c : Dev nD) :
    BodyObligationLoose (dats (F := F) m 0 c) (defs₀ (F := F)) Variants.none () Set.univ fgt := fun t => by
  rw [bigSep_W0, bigSep_W0]
  simp only [fgt_0, fgt_1, fgt_2, fgt_3, fgt_4]
  change _ ⊢ wp frame (wpE (defs₀ (F := F)) Variants.none c none) Set.univ (bodyAt0 t) _
  unfold bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%X4, H4⟩⟩
  iapply (sound_kernel (F := F) c Set.univ (grid0.coords t) _ _ _ _ _ _ _ _ _ _
    (iblk m c 0 t) (win0_1.fill (grid0.coords t) d1 (iblk m c 1 t)) (iblk m c 2 t) (iblk m c 3 t) _)
  isplitl [H0]; · iexact H0
  isplitl [H1]; · iexact H1
  isplitl [H2]; · iexact H2
  isplitl [H3]; · iexact H3
  isplitl [H4]; · iexists X4; iexact H4
  iintro ⟨H0, H1, H2, H3, H4⟩
  isplitl [HΦ]; · iexact HΦ
  isplitl [Ho]; · iexact Ho
  isplitl [H0]; · rw [after0_0]; try iexact H0
  isplitl [H1]
  · iexists d1
    have hw : win0_1.cut (grid0.coords t) (wtile m c t) = iblk m c 1 t := win0_1.cut_fill _ _ _
    change _ ⊢ owns (c : Thread nD τ) (st0_1 t) fullShare
      (win0_1.fill (grid0.coords t) d1 (win0_1.cut (grid0.coords t) ((dats m 0 c).after 1 t)))
    rw [after0_1, hw]; try iexact H1
  isplitl [H2]; · rw [after0_2]; try iexact H2
  isplitl [H3]; · rw [after0_3]; try iexact H3
  iexists _; iexact H4

/-! ## The run and the frame -/

set_option backward.isDefEq.respectTransparency.types false in
/-- At the compiled mesh, for any values, from any memory with zero counters: every weakly fair execution of the
    program terminates; every input array of the pipeline ends as the region found it, and so does every other buffer
    the region does not stage. -/
theorem run_unnamed : θ_run defs (onTc (τ := τ) (main (F := F))) (s₀ m ρ)
    (Pipeline.RDat.FramePost cfg0 (fun c => (dats m 0 c).toRForget fgt) (V m)) :=
  Pipeline.RDat.θ_run_frame cfgs (0 : Fin 1) launch0 defs₀ Variants.none (fun c => (dats m 0 c).toRForget fgt) m ρ main
    (hbody := fun c => (body_obligation_fgt m c).toRForget)
    (hshare := fun c w => (dats m 0 c).share_full (fun _ => rfl) w) (howed := fun _ _ => rfl)
    (V := V m) (hmain := hmain m Variants.none) (hA := fun c w => A_eq m c w) (hΦ := fun _ _ => rfl)

/-- The frame: the three arguments end unchanged — the input and the labels because the region never stages them, the
    weights because a staged input array is never written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 1 rfl).trans ((A_eq m c 1).trans (V_main_arg2 m c))⟩) (run_unnamed m ρ)

end Cert.KernelIdeal.FrameData

end
-- ==== Proof.Spec.lean ====
/-
  The mathematics of the certificate, apart from any program: what one entry of the additive-angular-margin
  logits is, as the reference computes it and as the kernel computes it, over the extended reals, and that the
  two agree on finite rows.

  For a row `a` of the input and a row `u` of the class weights, both of length 256, write `‖v‖ε = max(√Σ v², ε)`
  for the guarded Euclidean norm and `cos(a, u) = Σ_d (a_d / ‖a‖ε) · (u_d / ‖u‖ε)`. At a class that is not the row's label
  the entry is `s · cos(a, u)`; at the label it is `s · ψ(cos(a, u_label))` with the margin
  `ψ(t) = t cos m − √(1 − t²) sin m` for `t > 0` and `ψ(t) = t` otherwise.
  The kernel differs in three places, none of which changes the value on finite rows:
  it scales the input's unit row by `s` before the product (distributivity over a finite sum of reals);
  it multiplies by `(max(Σ u², ε²))^(-1/2)` instead of dividing by `max(√Σ u², ε)` (monotonicity of the square root);
  and it takes `√(max(1 − t², 0))`, where `1 − t² ≥ 0` already by the Cauchy–Schwarz inequality since both unit
  rows have norm at most one.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- A row of 256 extended reals. -/
abbrev Row := Fin 256 → EReal

/-- The norm guard `ε`: the value of the binary32 word nearest `1e-12`. -/
def eps : EReal := Ideal.ofBits .f32 0x2B8CBCCC#32
/-- Its exact square `ε²` (`ε = 2305843 / 2^61`), the kernel's guard under the square root. -/
def epsSq : EReal := ((5316911940649 / 5316911983139663491615228241121378304 : ℝ) : EReal)
/-- `cos m` and `sin m` at the margin `m = 0.5`, as the binary32 words both programs carry. -/
def cosM : EReal := Ideal.ofBits .f32 0x3F60A940#32
def sinM : EReal := Ideal.ofBits .f32 0x3EF57744#32
/-- The scale `s = 50`. -/
def scale : EReal := Ideal.ofBits .f32 0x42480000#32
/-- The word of `1.0`. -/
def one : EReal := Ideal.ofBits .f32 0x3F800000#32

/-- `Σ_d v_d²`. -/
def sumSq (v : Row) : EReal := ∑ d : Fin 256, v d * v d
/-- The guarded norm `max(√Σ v², ε)`. -/
def nrm (v : Row) : EReal := max (Ideal.sqrt (sumSq v)) eps
/-- The unit row `v / ‖v‖ε`, entry `d`. -/
def unit (v : Row) (d : Fin 256) : EReal := Ideal.div (v d) (nrm v)
/-- The cosine of two rows. -/
def cosv (a u : Row) : EReal := ∑ d : Fin 256, unit a d * unit u d

/-- The reference's margin `ψ`. -/
def margin (t : EReal) : EReal :=
  Scalar.select (Ideal.cmp .ogt t 0) (t * cosM - Ideal.sqrt (one - t * t) * sinM) t
/-- The kernel's margin: the same with the radicand clipped at zero. -/
def marginK (t : EReal) : EReal :=
  Scalar.select (Ideal.cmp .ogt t 0) (t * cosM - Ideal.sqrt (max (one - t * t) 0) * sinM) t

/-- One entry as the reference computes it: `a` the input's row, `u` the class's weight row, `ut` the label's weight
    row, `hit` whether the class is the row's label. -/
def refEntry (hit : Bool) (a u ut : Row) : EReal :=
  scale * (if hit then margin (cosv a ut) else cosv a u)
/-- One entry as the kernel computes it. -/
def kerEntry (hit : Bool) (a u ut : Row) : EReal :=
  if hit then scale * marginK (cosv a ut)
  else ∑ d : Fin 256, (unit a d * scale) * (u d * Ideal.rsqrt (max (sumSq u) epsSq))

/-! ## Over the whole arrays -/

abbrev SX : Shape := ⟨2, ![1024, 256]⟩
abbrev SL : Shape := ⟨1, ![1024]⟩
abbrev SW : Shape := ⟨2, ![100000, 256]⟩
abbrev SO : Shape := ⟨2, ![1024, 100000]⟩

/-- Row `b` of the input, row `c` of the weights. -/
def rowX (x : SX.Idx → EReal) (b : Fin 1024) : Row := fun d => x (ix2 b d)
def rowW (w : SW.Idx → EReal) (c : Fin 100000) : Row := fun d => w (ix2 c d)
/-- Row `b`'s label as a class (the word read unsigned; reduced modulo the class count only to be total). -/
def labC (lab : SL.Idx → BitVec 32) (b : Fin 1024) : Fin 100000 :=
  ⟨(lab (ix1 b)).toNat % 100000, Nat.mod_lt _ (by decide)⟩

/-- The logits as the reference computes them, -/
def Gref (x : SX.Idx → EReal) (lab : SL.Idx → BitVec 32) (w : SW.Idx → EReal) : SO.Idx → EReal := fun i =>
  refEntry (decide ((labC lab (i 0)).val = (i 1).val)) (rowX x (i 0)) (rowW w (i 1)) (rowW w (labC lab (i 0)))
/-- and as the kernel computes them. -/
def Gker (x : SX.Idx → EReal) (lab : SL.Idx → BitVec 32) (w : SW.Idx → EReal) : SO.Idx → EReal := fun i =>
  kerEntry (decide ((labC lab (i 0)).val = (i 1).val)) (rowX x (i 0)) (rowW w (i 1)) (rowW w (labC lab (i 0)))

end Cert.Spec

end
-- ==== Proof.KI.Payload.lean ====
/-
  The kernel body's one stored value, read at an entry of the 1024 × 1536 tile: at row b and tile column j, with the
  tile at grid step g, it is the staged target value of row b when row b's label is the column `1536 g + j`, and
  otherwise the product of row b of the scaled unit input with row j of the weight tile rescaled by
  `(max(Σ_d v², ε²))^(-1/2)`. Only row j of the tile enters.
-/
import proofs.«427160_j39676907888373_3_alg».proof.Proof.Gen.KernelIdeal.Skeleton
import proofs.«427160_j39676907888373_3_alg».proof.Proof.Spec
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value

noncomputable section

open scoped BigOperators

namespace Cert.KernelIdeal.KValue

open Cert.KernelIdeal Cert.KernelIdeal.Gen Idealize.ShloMosaic Idealize.ShloMosaic.ValueIdx

namespace Pay

/-! ## Column layouts at explicit coordinates

The weight tile's row sums are taken with the reduced axis kept: a vector of length `a` becomes an `a × 1` column, and a
column is spread over the columns of an `a × b` array. Both read the operand at the row coordinate alone. -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The row sums of squares -/

/-- The lane sum of a 1536 × 256 tile at row `j` is the sum of that row's 256 entries. -/
theorem rowSum_apply (x : FVec Ideal S1536x256 .f32) (h : S1536x256.Reduces [1] S1536) (hφ : FKind.Formats .f32)
    (hacc : (0x00000000#32 : BitVec 32) = 0x00000000#32) (j : Fin 1536) :
    multiReduction .add [1] S1536 x 0x00000000#32 h hφ hacc (ix1 j) = ∑ d : Fin 256, x (ix2 j d) :=
  (Ideal.multiReduction_add_single x _ h hφ hacc (ix1 j)).trans
    (Finset.sum_congr rfl fun d _ => congrArg x (funext fun a => Fin.ext (match a with
      | ⟨0, _⟩ => rfl
      | ⟨1, _⟩ => rfl)))

end Pay

namespace Pay

/-! ## The product: both operands contracted along their second axis

The tile's dot contracts axis 1 of the 1024 × 256 left operand with axis 1 of the 1536 × 256 right operand, so at output
entry `(b, j)` and contraction position `k` it reads the left operand at `(b, k)` and the right operand at `(j, k)`. -/

theorem lhs_axis0 (i : S1024x1536.Idx) (q : dot_S1024x256_S1536x256_S1024x1536_1_1_0_0_n_n.contr.Idx) :
    (dot_S1024x256_S1536x256_S1024x1536_1_1_0_0_n_n.lhsIdx i q 0).val = (i 0).val := by
  unfold DotDims.lhsIdx
  rw [dif_neg (show ¬(0 : Fin S1024x256.rank) ∈ dot_S1024x256_S1536x256_S1024x1536_1_1_0_0_n_n.lhsBatch by decide), dif_pos (show (0 : Fin S1024x256.rank) ∈ dot_S1024x256_S1536x256_S1024x1536_1_1_0_0_n_n.lhsNonContracting by decide)]
  rfl
theorem lhs_axis1 (i : S1024x1536.Idx) (q : dot_S1024x256_S1536x256_S1024x1536_1_1_0_0_n_n.contr.Idx) :
    (dot_S1024x256_S1536x256_S1024x1536_1_1_0_0_n_n.lhsIdx i q 1).val = (q ⟨0, by decide⟩).val :=
  dot_S1024x256_S1536x256_S1024x1536_1_1_0_0_n_n.lhsIdx_val_of_single rfl i q
theorem rhs_axis0 (i : S1024x1536.Idx) (q : dot_S1024x256_S1536x256_S1024x1536_1_1_0_0_n_n.contr.Idx) :
    (dot_S1024x256_S1536x256_S1024x1536_1_1_0_0_n_n.rhsIdx i q 0).val = (i 1).val := by
  unfold DotDims.rhsIdx
  rw [dif_neg (show ¬(0 : Fin S1536x256.rank) ∈ dot_S1024x256_S1536x256_S1024x1536_1_1_0_0_n_n.rhsBatch by decide), dif_pos (show (0 : Fin S1536x256.rank) ∈ dot_S1024x256_S1536x256_S1024x1536_1_1_0_0_n_n.rhsNonContracting by decide)]
  rfl
theorem rhs_axis1 (i : S1024x1536.Idx) (q : dot_S1024x256_S1536x256_S1024x1536_1_1_0_0_n_n.contr.Idx) :
    (dot_S1024x256_S1536x256_S1024x1536_1_1_0_0_n_n.rhsIdx i q 1).val = (q ⟨0, by decide⟩).val :=
  dot_S1024x256_S1536x256_S1024x1536_1_1_0_0_n_n.rhsIdx_val_of_single rfl i q

/-- The product into a zero accumulator, at entry `(b, j)`: `Σ_k x (b, k) · y (j, k)`. -/
theorem prod_apply (x : FVec Ideal S1024x256 .bf16) (y : FVec Ideal S1536x256 .bf16) (b : Fin 1024) (j : Fin 1536) :
    matmul dot_S1024x256_S1536x256_S1024x1536_1_1_0_0_n_n none x y (constant (F := Ideal) S1024x1536 .f32 0x00000000#32) (ix2 b j)
      = ∑ k : Fin 256, x (ix2 b k) * y (ix2 j k) := by
  refine (Ideal.matmul_constant_zero_apply dot_S1024x256_S1536x256_S1024x1536_1_1_0_0_n_n none x y (ix2 b j)).trans ?_
  rw [← Equiv.sum_comp (ValueIdx.contrEquiv1 dot_S1024x256_S1536x256_S1024x1536_1_1_0_0_n_n 256 rfl rfl).symm]
  refine Finset.sum_congr rfl fun k _ => ?_
  have hk := ValueIdx.contrEquiv1_symm_val dot_S1024x256_S1536x256_S1024x1536_1_1_0_0_n_n 256 rfl rfl k
  have el : dot_S1024x256_S1536x256_S1024x1536_1_1_0_0_n_n.lhsIdx (ix2 b j) ((ValueIdx.contrEquiv1 dot_S1024x256_S1536x256_S1024x1536_1_1_0_0_n_n 256 rfl rfl).symm k) = ix2 b k := funext fun a => Fin.ext (by
    match a with
    | ⟨0, _⟩ => exact lhs_axis0 _ _
    | ⟨1, _⟩ => exact (lhs_axis1 _ _).trans hk)
  have er : dot_S1024x256_S1536x256_S1024x1536_1_1_0_0_n_n.rhsIdx (ix2 b j) ((ValueIdx.contrEquiv1 dot_S1024x256_S1536x256_S1024x1536_1_1_0_0_n_n 256 rfl rfl).symm k) = ix2 j k := funext fun a => Fin.ext (by
    match a with
    | ⟨0, _⟩ => exact rhs_axis0 _ _
    | ⟨1, _⟩ => exact (rhs_axis1 _ _).trans hk)
  rw [el, er]

/-! ## The label test -/

/-- The column word: `1536 g + j` as a 32-bit word, from the step's word times 1536 plus the lane's word (the words of naturals
    add and multiply as the naturals do, modulo `2^32`). -/
theorem colWord (g j : ℕ) : IntOp.addi (Scalar.muli (BitVec.ofNat 32 g) 1536#32) (BitVec.ofNat 32 j) = BitVec.ofNat 32 (g * 1536 + j) := by
  show BitVec.ofNat 32 g * BitVec.ofNat 32 1536 + BitVec.ofNat 32 j = _
  rw [BitVec.ofNat_add, BitVec.ofNat_mul]

/-- A selection on the bit of an equality test is the `if` on the equality. -/
theorem select_cmpi_eq {α : Type} {w : ℕ} (x y : BitVec w) (A B : α) :
    Scalar.select (IntOp.cmpi .eq x y) A B = if x = y then A else B := by
  show Scalar.select (BitVec.ofBool (x == y)) A B = _
  by_cases h : x = y
  · rw [if_pos h, h, beq_self_eq_true]; exact select_one A B
  · rw [if_neg h, (beq_eq_false_iff_ne).2 h]; exact select_zero A B

end Pay

namespace Pay

/-! ## The rescaled weight rows -/

/-- The named guard under the reciprocal square root is `ε²`. -/
theorem epsSq_named : Named.named (F := Ideal) κ "eps_sq" (φ := .f32) 0x179ABE15#32 = Cert.Spec.epsSq :=
  IdealRules.named_const.ideal_named_scalar _ _ _ _ rfl

/-- The rescaling column at row `j`: `(max(Σ_d v², ε²))^(-1/2)` over that row of the tile. -/
theorem scale_apply (v2 : FVec Ideal S1536x256 .f32) (j : Fin 1536) (u : Fin 1) :
    rsqrt (maximumf (shapeCast S1536x1 (multiReduction .add [1] S1536 (mulf v2 v2) 0x00000000#32 reduces_S1536x256_S1536 (.inl rfl) rfl) shapeCasts_S1536_S1536x1)
      (broadcast S1536x1 (Named.named (F := Ideal) κ "eps_sq" (φ := .f32) 0x179ABE15#32))) (ix2 j u)
    = Ideal.rsqrt (max (∑ d' : Fin 256, v2 (ix2 j d') * v2 (ix2 j d')) Cert.Spec.epsSq) := by
  show Ideal.rsqrt (max (shapeCast S1536x1 (multiReduction .add [1] S1536 (mulf v2 v2) 0x00000000#32 reduces_S1536x256_S1536 (.inl rfl) rfl) shapeCasts_S1536_S1536x1 (ix2 j u))
      (Named.named (F := Ideal) κ "eps_sq" (φ := .f32) 0x179ABE15#32)) = _
  rw [shapeCast_a_a1_apply, rowSum_apply, epsSq_named]
  rfl

/-- A row of the tile times a column spread over the row's entries: entry `(j, d)` is `v (j, d) · col j`. -/
theorem weight_apply (v2 : FVec Ideal S1536x256 .f32) (col : FVec Ideal S1536x1 .f32) (j : Fin 1536) (d : Fin 256) :
    truncf .bf16 (mulf v2 (broadcastTo S1536x256 col broadcasts_S1536x1_S1536x256)) bitsLt_bf16_f32 (ix2 j d)
      = v2 (ix2 j d) * col (ix2 j (0 : Fin 1)) := by
  show v2 (ix2 j d) * broadcastTo S1536x256 col broadcasts_S1536x1_S1536x256 (ix2 j d) = _
  rw [broadcastTo_a1_ab_apply]

/-- The product of the input with the rescaled tile, at entry `(b, j)`. -/
theorem dot_apply (v0 : FVec Ideal S1024x256 .bf16) (v2 : FVec Ideal S1536x256 .f32) (b : Fin 1024) (j : Fin 1536) :
    matmul dot_S1024x256_S1536x256_S1024x1536_1_1_0_0_n_n none (shapeCast S1024x256 v0 shapeCasts_S1024x256_S1024x256)
      (truncf .bf16 (mulf v2 (broadcastTo S1536x256
        (rsqrt (maximumf (shapeCast S1536x1 (multiReduction .add [1] S1536 (mulf v2 v2) 0x00000000#32 reduces_S1536x256_S1536 (.inl rfl) rfl) shapeCasts_S1536_S1536x1)
          (broadcast S1536x1 (Named.named (F := Ideal) κ "eps_sq" (φ := .f32) 0x179ABE15#32))))
        broadcasts_S1536x1_S1536x256)) bitsLt_bf16_f32)
      (constant (F := Ideal) S1024x1536 .f32 0x00000000#32) (ix2 b j)
    = ∑ d : Fin 256, v0 (ix2 b d) * (v2 (ix2 j d) * Ideal.rsqrt (max (∑ d' : Fin 256, v2 (ix2 j d') * v2 (ix2 j d')) Cert.Spec.epsSq)) := by
  rw [prod_apply, shapeCast_self]
  refine Finset.sum_congr rfl fun d _ => ?_
  rw [weight_apply, scale_apply]

/-! ## The label test and the staged target at an entry -/

/-- The test at entry `(b, j)` of the tile at step `g`: row `b`'s label word against the word of column `1536 g + j`. -/
theorem hit_apply (g : ℕ) (v17 : IVec S1024x1 32) (b : Fin 1024) (j : Fin 1536) :
    cmpi .eq (broadcastTo S1024x1536 (shapeCast S1024x1 v17 shapeCasts_S1024x1_S1024x1) broadcasts_S1024x1_S1024x1536)
      (addi (broadcast S1024x1536 (Scalar.muli (BitVec.ofNat 32 g) 1536#32)) (iota .tc S1024x1536 32 [1] iota_S1024x1536_d1_w32)) (ix2 b j)
    = IntOp.cmpi .eq (v17 (ix2 b (0 : Fin 1))) (BitVec.ofNat 32 (g * 1536 + j.val)) := by
  show IntOp.cmpi .eq (broadcastTo S1024x1536 (shapeCast S1024x1 v17 shapeCasts_S1024x1_S1024x1) broadcasts_S1024x1_S1024x1536 (ix2 b j))
      (IntOp.addi (Scalar.muli (BitVec.ofNat 32 g) 1536#32) (iota .tc S1024x1536 32 [1] iota_S1024x1536_d1_w32 (ix2 b j))) = _
  rw [broadcastTo_a1_ab_apply, shapeCast_self, iota_single_apply, colWord]

/-- The staged target column spread over the tile's columns: entry `(b, j)` is row `b`'s target. -/
theorem target_apply (v21 : FVec Ideal S1024x1 .f32) (b : Fin 1024) (j : Fin 1536) :
    broadcastTo S1024x1536 (shapeCast S1024x1 (shapeCast S1024x1 v21 shapeCasts_S1024x1_S1024x1) shapeCasts_S1024x1_S1024x1)
      broadcasts_S1024x1_S1024x1536 (ix2 b j) = v21 (ix2 b (0 : Fin 1)) := by
  rw [broadcastTo_a1_ab_apply, shapeCast_self, shapeCast_self]

end Pay

/-- The stored value at tile entry (b, j). -/
theorem pay_apply (i : grid0.Coords) (v0 : Vec Ideal S1024x256 .bf16) (v2 : Vec Ideal S1536x256 .f32) (v17 : Vec Ideal S1024x1 .i32)
    (v21 : Vec Ideal S1024x1 .f32) (b : Fin 1024) (j : Fin 1536) :
    k0_pay1 (F := Ideal) i v0 v2 v17 v21 (ix2 b j)
      = if v17 (ix2 b (0 : Fin 1)) = BitVec.ofNat 32 ((i 0).val * 1536 + j.val) then v21 (ix2 b (0 : Fin 1))
        else ∑ d : Fin 256, v0 (ix2 b d) * (v2 (ix2 j d) * Ideal.rsqrt (max (∑ d' : Fin 256, v2 (ix2 j d') * v2 (ix2 j d')) Cert.Spec.epsSq)) := by
  unfold k0_pay1
  dsimp only
  refine (select_apply _ _ _ (ix2 b j)).trans ?_
  refine (congr (congr (congrArg Scalar.select (Pay.hit_apply (i 0).val v17 b j)) (Pay.target_apply v21 b j))
    (Pay.dot_apply v0 v2 b j)).trans ?_
  exact Pay.select_cmpi_eq _ _ _ _

end Cert.KernelIdeal.KValue

end
-- ==== Proof.KI.Exact.lean ====
/-
  At the extended reals the result window can be named: the body's obligation with nothing left out, and the run
  with the result array at what the library computes from the proof data.

  The one new fact is that the part of the result tile the write-back moves does not depend on what the weight
  tile's buffer holds past the array's end: entry (b, j) of the tile is the label test of row b against column
  `1536 g + j`, row b's target value, and the product of row b of the scaled unit input with the rescaled row j of the
  weight tile — only row j of the tile enters, and the columns j the write-back moves are exactly the rows j the
  fetch landed (the two windows cut the class axis alike at every step).
-/
import proofs.«427160_j39676907888373_3_alg».proof.Proof.KI.Frame
import proofs.«427160_j39676907888373_3_alg».proof.Proof.KI.Payload

set_option maxRecDepth 16384

noncomputable section

open scoped BigOperators

namespace Cert.KernelIdeal.Exact

open Cert.KernelIdeal Cert.KernelIdeal.Gen Cert.KernelIdeal.Body Cert.KernelIdeal.FrameData Cert.KernelIdeal.KValue
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The two overhanging windows, decided over the grid -/

/-- At every step the result window cuts its columns exactly as the weight window cuts its rows, -/
theorem xsize4_eq_xsize1 : ∀ t : Fin cfg0.N,
    win0_4.xsize (grid0.coords t) (1 : Fin 2) = win0_1.xsize (grid0.coords t) (0 : Fin 2) :=
  (by decide +kernel : ∀ t : Fin grid0.N,
    win0_4.xsize (grid0.coords t) (1 : Fin 2) = win0_1.xsize (grid0.coords t) (0 : Fin 2))
/-- and the weight window keeps all 256 entries of each row. -/
theorem xsize1_lanes : ∀ t : Fin cfg0.N, win0_1.xsize (grid0.coords t) (1 : Fin 2) = 256 :=
  (by decide +kernel : ∀ t : Fin grid0.N, win0_1.xsize (grid0.coords t) (1 : Fin 2) = 256)

/-! ## Only row j of the weight tile enters entry (b, j) -/

/-- Two weight tiles that agree on row `jj` give the same stored value at every entry `(b, jj)`. -/
theorem pay_congr_row (i : grid0.Coords) (x0 : Vec Ideal S1024x256 .bf16) (X X' : Vec Ideal S1536x256 .f32)
    (x2 : Vec Ideal S1024x1 .i32) (x3 : Vec Ideal S1024x1 .f32) (b : Fin 1024) (jj : Fin 1536)
    (h : ∀ dd : Fin 256, X (ix2 jj dd) = X' (ix2 jj dd)) :
    k0_pay1 (F := Ideal) i x0 X x2 x3 (ix2 b jj) = k0_pay1 (F := Ideal) i x0 X' x2 x3 (ix2 b jj) := by
  rw [pay_apply, pay_apply]
  simp only [h]

/-- Two fillings of the weight tile's buffer with the same fetched part agree at every index the fetch moves. -/
theorem wfill_congr (t : Fin cfg0.N) (d d' : S1536x256.Idx → Elt Ideal .f32)
    (B : (win0_1.xblock (grid0.coords t)).Idx → Elt Ideal .f32) (j : S1536x256.Idx)
    (h : win0_1.moved (grid0.coords t) j = true) :
    win0_1.fill (grid0.coords t) d B j = win0_1.fill (grid0.coords t) d' B j := by
  unfold Pipeline.Window.fill; rw [dif_pos h, dif_pos h]

/-- The columns of the result tile that the write-back moves hold the same values whatever fills the weight tile's
    buffer past the array's end. -/
theorem cut_outTile (t : Fin cfg0.N) (x0 : Vec Ideal S1024x256 .bf16) (B : (win0_1.xblock (grid0.coords t)).Idx → Elt Ideal .f32)
    (x2 : Vec Ideal S1024x1 .i32) (x3 : Vec Ideal S1024x1 .f32) (d d' : S1536x256.Idx → Elt Ideal .f32) :
    win0_4.cut (grid0.coords t) (outTile (F := Ideal) (grid0.coords t) x0 (win0_1.fill (grid0.coords t) d B) x2 x3)
      = win0_4.cut (grid0.coords t) (outTile (F := Ideal) (grid0.coords t) x0 (win0_1.fill (grid0.coords t) d' B) x2 x3) := by
  funext j
  show outTile (F := Ideal) (grid0.coords t) x0 (win0_1.fill (grid0.coords t) d B) x2 x3 (win0_4.xinj (grid0.coords t) j)
    = outTile (F := Ideal) (grid0.coords t) x0 (win0_1.fill (grid0.coords t) d' B) x2 x3 (win0_4.xinj (grid0.coords t) j)
  rw [outTile_eq, outTile_eq]
  have hy : (win0_4.xinj (grid0.coords t) j : S1024x1536.Idx)
      = ix2 (win0_4.xinj (grid0.coords t) j 0) (win0_4.xinj (grid0.coords t) j 1) := eq_ix2 _
  rw [hy]
  refine pay_congr_row _ _ _ _ _ _ _ _ fun dd => ?_
  refine wfill_congr t d d' B _ ((win0_1.moved_iff _ _).mpr fun a => ?_)
  match a with
  | ⟨0, _⟩ =>
    show (j 1).val < win0_1.xsize (grid0.coords t) (0 : Fin 2)
    rw [← xsize4_eq_xsize1 t]; exact (j 1).isLt
  | ⟨1, _⟩ =>
    show dd.val < win0_1.xsize (grid0.coords t) (1 : Fin 2)
    rw [xsize1_lanes t]; exact dd.isLt

/-- The body's obligation at every step, every window named. -/
theorem body_obligation (c : Dev nD) :
    BodyObligationLoose (dats (F := Ideal) m 0 c) (defs₀ (F := Ideal)) Variants.none () Set.univ := fun t => by
  rw [bigSep_W0, bigSep_W0]
  simp only []
  change _ ⊢ wp frame (wpE (defs₀ (F := Ideal)) Variants.none c none) Set.univ (bodyAt0 t) _
  unfold bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  iapply (sound_kernel (F := Ideal) c Set.univ (grid0.coords t) _ _ _ _ _ _ _ _ _ _
    (iblk m c 0 t) (win0_1.fill (grid0.coords t) d1 (iblk m c 1 t)) (iblk m c 2 t) (iblk m c 3 t) _)
  isplitl [H0]; · iexact H0
  isplitl [H1]; · iexact H1
  isplitl [H2]; · iexact H2
  isplitl [H3]; · iexact H3
  isplitl [H4]; · iexists d4; iexact H4
  iintro ⟨H0, H1, H2, H3, H4⟩
  isplitl [HΦ]; · iexact HΦ
  isplitl [Ho]; · iexact Ho
  isplitl [H0]; · rw [after0_0]; try iexact H0
  isplitl [H1]
  · iexists d1
    have hw : win0_1.cut (grid0.coords t) (wtile m c t) = iblk m c 1 t := win0_1.cut_fill _ _ _
    change _ ⊢ owns (c : Thread nD τ) (st0_1 t) fullShare
      (win0_1.fill (grid0.coords t) d1 (win0_1.cut (grid0.coords t) ((dats m 0 c).after 1 t)))
    rw [after0_1, hw]; try iexact H1
  isplitl [H2]; · rw [after0_2]; try iexact H2
  isplitl [H3]; · rw [after0_3]; try iexact H3
  -- the result's buffer: what the body left is, on the columns the write-back moves, the proof data's tile
  iexists (outTile (F := Ideal) (grid0.coords t) (iblk m c 0 t) (win0_1.fill (grid0.coords t) d1 (iblk m c 1 t))
    (iblk m c 2 t) (iblk m c 3 t))
  have hc : win0_4.cut (grid0.coords t) (otile m c t)
      = win0_4.cut (grid0.coords t) (outTile (F := Ideal) (grid0.coords t) (iblk m c 0 t)
          (win0_1.fill (grid0.coords t) d1 (iblk m c 1 t)) (iblk m c 2 t) (iblk m c 3 t)) := by
    unfold otile wtile
    exact cut_outTile t _ _ _ _ _ _
  change _ ⊢ owns (c : Thread nD τ) (st0_4 t) fullShare
    (win0_4.fill (grid0.coords t)
      (outTile (F := Ideal) (grid0.coords t) (iblk m c 0 t) (win0_1.fill (grid0.coords t) d1 (iblk m c 1 t))
        (iblk m c 2 t) (iblk m c 3 t))
      (win0_4.cut (grid0.coords t) ((dats m 0 c).after 4 t)))
  rw [after0_4, hc, win0_4.fill_cut]; try iexact H4

set_option backward.isDefEq.respectTransparency.types false in
/-- The run: every array of the pipeline ends at what the library computes from the proof data, every other
    unstaged buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

end Cert.KernelIdeal.Exact

end
-- ==== Proof.KI.Host.lean ====
/-
  What the three computed operands of the kernel's launch hold when the region is entered, read at an entry, as
  functions of the program's arguments: the scaled unit input `x̂_b · s` (the bf16 cast is the identity on extended
  reals); the labels laid out as a column; and the per-row target value `s · ψ_K(cos(x_b, w_label(b)))`, computed from the
  gathered label rows of the weights — the gather reads row `label(b)` because every label is a class index.

  The order: the layout operations read at an entry; a row sum and a row over its guarded norm (the same eight
  operations normalise the input and the gathered rows); the row gather; the labels as start indices; the row cosine and
  the margin; each operand as one term of the arguments; the three statements.
-/
import proofs.«427160_j39676907888373_3_alg».proof.Proof.Gen.KernelIdeal.Frame
import proofs.«427160_j39676907888373_3_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate

noncomputable section

open scoped BigOperators

namespace Cert.KernelIdeal.KValue

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ) (c : Dev nD)

/-- The three arguments on core `c`, as plain arrays. -/
abbrev argX : Cert.Spec.SX.Idx → EReal := m ((c.tc : Thread nD τ).loc main_arg0)
abbrev argL : Cert.Spec.SL.Idx → BitVec 32 := m ((c.tc : Thread nD τ).loc main_arg1)
abbrev argW : Cert.Spec.SW.Idx → EReal := m ((c.tc : Thread nD τ).loc main_arg2)

namespace HostVal

/-! ## The layout operations of this program read at an entry -/

section Layout
variable {α : Type}

/-- A column [1024, 1] repeated along 256 columns reads, at (b, d), the column at (b, 0). -/
theorem bcastRow_apply (v : S1024x1.Idx → α) (b : Fin 1024) (d : Fin 256) :
    broadcastInDim S1024x256 ![0, 1] Facts₀.bcast_S1024x1_S1024x256_0_1 v (ix2 b d) = v (ix2 b (0 : Fin 1)) :=
  broadcastInDim_apply _ Facts₀.bcast_S1024x1_S1024x256_0_1 v (ix2 b d) (ix2 b (0 : Fin 1)) (fun a => match a with
    | ⟨0, _⟩ => by show b.val = if (1024 : Nat) = 1 then 0 else b.val; rw [if_neg (by decide)]
    | ⟨1, _⟩ => by show 0 = if (1 : Nat) = 1 then 0 else d.val; rw [if_pos rfl])

/-- A vector [1024] laid out as a column reads, at (b, 0), the vector at b. -/
theorem bcastCol_apply (v : S1024.Idx → α) (b : Fin 1024) :
    broadcastInDim S1024x1 ![0] Facts₀.bcast_S1024_S1024x1_0 v (ix2 b (0 : Fin 1)) = v (ix1 b) :=
  broadcastInDim_apply _ Facts₀.bcast_S1024_S1024x1_0 v (ix2 b (0 : Fin 1)) (ix1 b) (fun a => match a with
    | ⟨0, _⟩ => by show b.val = if (1024 : Nat) = 1 then 0 else b.val; rw [if_neg (by decide)])

/-- A scalar repeated over any shape reads the scalar everywhere. -/
theorem bcastScalar_apply {t : Shape} (h : S_.BroadcastsInDim t ![]) (v : S_.Idx → α) (j : t.Idx) :
    broadcastInDim (s := S_) t ![] h v j = v ix0 :=
  broadcastInDim_apply _ h v j ix0 (fun a => a.elim0)

/-- A vector [1024] reshaped to a column reads, at (b, 0), the vector at b. -/
theorem reshapeCol_apply (v : S1024.Idx → α) (b : Fin 1024) :
    shapeCast S1024x1 v Facts₀.shapeCasts_S1024_S1024x1 (ix2 b (0 : Fin 1)) = v (ix1 b) := by
  refine shapeCast_apply v Facts₀.shapeCasts_S1024_S1024x1 _ _ ?_
  rw [Shape.rowMajor_val_one, Shape.rowMajor_val_two]
  show b.val = b.val * 1 + 0
  omega

end Layout

/-! ## A row sum, and a row divided by its guarded norm -/

/-- The host's sum over axis 1 from the zero word: at row b, the sum of the row's 256 entries. -/
theorem rowSum_apply (y : FVec Ideal S1024x256 .f32) (b : Fin 1024) :
    Host.reduceAdd y (constant (F := Ideal) S_ .f32 0x00000000#32) Facts₀.reducesTo_S1024x256_S1024_d1 Facts₀.h_S_ (ix1 b)
      = ∑ d : Fin 256, y (ix2 b d) := by
  simp only [Host.reduceAdd, Ideal.hostReduceAdd_def]
  rw [Ideal.hostReduceAdd_single Facts₀.reducesTo_S1024x256_S1024_d1 (by decide)]
  rw [constant_apply, Ideal.ofBits_zero_f32, zero_add]
  refine Finset.sum_congr rfl fun k _ => ?_
  exact congrArg y (funext fun a => Fin.ext (by match a with | ⟨0, _⟩ => rfl | ⟨1, _⟩ => rfl))

/-- The eight host operations that divide every row of a [1024, 256] array by its guarded Euclidean norm. -/
def rowUnit (x : FVec Ideal S1024x256 .f32) : FVec Ideal S1024x256 .f32 :=
  Host.divf x (broadcastInDim S1024x256 ![0, 1] Facts₀.bcast_S1024x1_S1024x256_0_1
    (maximumf
      (Host.sqrt (broadcastInDim S1024x1 ![0] Facts₀.bcast_S1024_S1024x1_0
        (Host.reduceAdd (mulf x x) (constant (F := Ideal) S_ .f32 0x00000000#32) Facts₀.reducesTo_S1024x256_S1024_d1 Facts₀.h_S_)))
      (broadcastInDim (s := S_) S1024x1 ![] Facts₀.bcast_S_S1024x1 (constant (F := Ideal) S_ .f32 0x2B8CBCCC#32))))

/-- Entry (b, d) of it is the specification's unit row of row b at d. -/
theorem rowUnit_apply (x : FVec Ideal S1024x256 .f32) (b : Fin 1024) (d : Fin 256) :
    rowUnit x (ix2 b d) = Cert.Spec.unit (fun d' => x (ix2 b d')) d := by
  unfold rowUnit
  show Ideal.div (x (ix2 b d)) _ = Ideal.div (x (ix2 b d)) _
  rw [bcastRow_apply]
  show Ideal.div _ (max (Ideal.sqrt (broadcastInDim (s := S1024) S1024x1 ![0] Facts₀.bcast_S1024_S1024x1_0 _ (ix2 b (0 : Fin 1)))) (broadcastInDim (s := S_) S1024x1 ![] Facts₀.bcast_S_S1024x1 _ (ix2 b (0 : Fin 1)))) = _
  rw [bcastCol_apply, bcastScalar_apply, rowSum_apply]
  rfl

/-! ## The row gather -/

/-- Every entry of a one-element list is that element. -/
theorem getElem_of_singleton {β : Type} {l : List β} {v : β} (e : l = [v]) (k : ℕ) (hk : k < l.length) : l[k] = v := by
  subst e
  have hk0 : k = 0 := by simpa using hk
  subst hk0
  rfl

local notation "GD" => gather_S100000x256_S1024x1_S1024x256_1_0_n_n_0_1_1256

/-- The gather of whole rows: entry (b, d) of the result is the operand at the row whose number is the start index
    idx (b, 0), read signed and clamped into [0, 99999], and at column d. -/
theorem rowGather_apply (w : FVec Ideal S100000x256 .f32) (idx : IVec S1024x1 32) (b : Fin 1024) (d : Fin 256) :
    Host.gather GD w idx (ix2 b d)
      = w (ix2 (⟨min (idx (ix2 b (0 : Fin 1))).toInt.toNat (100000 - 1), by omega⟩ : Fin 100000) d) := by
  unfold Host.gather
  congr 1
  funext a
  refine Fin.ext ?_
  show GatherDims.start GD (ix2 b d) idx a + GatherDims.batchCoord GD (ix2 b d) a + GatherDims.offCoord GD (ix2 b d) a = _
  rw [GatherDims.batchCoord_eq_zero GD _ a List.not_mem_nil, Nat.add_zero]
  match a with
  | ⟨0, _⟩ =>
    -- the collapsed axis: the clamped start index, no offset
    show GatherDims.start GD (ix2 b d) idx 0 + GatherDims.offCoord GD (ix2 b d) 0 = min (idx (ix2 b (0 : Fin 1))).toInt.toNat (100000 - 1)
    rw [GatherDims.offCoord_eq_zero GD _ 0 (fun h => ((GatherDims.mem_sKept GD _).1 h).1 (List.mem_singleton.mpr rfl)), Nat.add_zero]
    unfold GatherDims.start
    rw [dif_pos (show (0 : Fin 2) ∈ (GatherDims.startIndexMap GD) from List.mem_singleton.mpr rfl)]
    have hsi : GatherDims.siIdx GD (ix2 b d) ⟨List.idxOf (0 : Fin 2) (GatherDims.startIndexMap GD),
        List.idxOf_lt_length_iff.2 (List.mem_singleton.mpr rfl)⟩ = ix2 b (0 : Fin 1) := by
      funext q; refine Fin.ext ?_
      match q with
      | ⟨0, _⟩ => rfl
      | ⟨1, _⟩ => rfl
    rw [hsi]
    rfl
  | ⟨1, _⟩ =>
    -- the kept axis: the slice starts at 0 and the offset is the result's column
    show GatherDims.start GD (ix2 b d) idx 1 + GatherDims.offCoord GD (ix2 b d) 1 = d.val
    have hs : GatherDims.start GD (ix2 b d) idx 1 = 0 := by
      unfold GatherDims.start
      rw [dif_neg (show (1 : Fin 2) ∉ (GatherDims.startIndexMap GD) by decide)]
    rw [hs, Nat.zero_add]
    unfold GatherDims.offCoord
    rw [dif_pos (show (1 : Fin 2) ∈ (GatherDims.sKept GD) from (GatherDims.mem_sKept GD _).2 ⟨by decide, List.not_mem_nil⟩)]
    exact congrArg (fun q => ((ix2 b d : S1024x256.Idx) q).val) (getElem_of_singleton (l := (GatherDims.offsetDims GD)) (v := (1 : Fin 2)) rfl _ _)

/-! ## The labels as start indices -/

/-- The host's wrap of negative labels, `label < 0 ? label + 100000 : label`. -/
def labSel (lab : IVec S1024 32) : IVec S1024 32 :=
  select (cmpi .slt lab (broadcastInDim (s := S_) S1024 ![] Facts₀.bcast_S_S1024 (constantI S_ 32 0#32)))
    (addi lab (broadcastInDim (s := S_) S1024 ![] Facts₀.bcast_S_S1024 (constantI S_ 32 100000#32))) lab

/-- A class index is not negative as a signed word, so the wrap keeps it. -/
theorem labSel_apply (lab : IVec S1024 32) (hlab : ∀ j, (lab j).toNat < 100000) (b : Fin 1024) :
    labSel lab (ix1 b) = lab (ix1 b) := by
  unfold labSel
  rw [select_apply]
  have h0 : cmpi .slt lab (broadcastInDim (s := S_) S1024 ![] Facts₀.bcast_S_S1024 (constantI S_ 32 0#32)) (ix1 b) = 0#1 := by
    apply eq_zero_of_ne_one
    show ¬ IntOp.cmpi .slt (lab (ix1 b)) (broadcastInDim (s := S_) S1024 ![] Facts₀.bcast_S_S1024 (constantI S_ 32 0#32) (ix1 b)) = 1#1
    rw [bcastScalar_apply]
    show ¬ IntOp.cmpi .slt (lab (ix1 b)) 0#32 = 1#1
    rw [StableHlo.Predicate.slt_iff_toNat (by have := hlab (ix1 b); omega) (by decide)]
    exact Nat.not_lt_zero _
  rw [h0, select_zero]

/-- The rows of the weights the labels name. -/
def tgtRows (lab : IVec S1024 32) (w : FVec Ideal S100000x256 .f32) : FVec Ideal S1024x256 .f32 :=
  Host.gather GD w (broadcastInDim S1024x1 ![0] Facts₀.bcast_S1024_S1024x1_0 (labSel lab))

/-- Row b of them is the weights' row at b's label. -/
theorem tgtRows_apply (lab : IVec S1024 32) (w : FVec Ideal S100000x256 .f32) (hlab : ∀ j, (lab j).toNat < 100000)
    (b : Fin 1024) (d : Fin 256) :
    tgtRows lab w (ix2 b d) = Cert.Spec.rowW w (Cert.Spec.labC lab b) d := by
  unfold tgtRows
  rw [rowGather_apply]
  show w _ = w _
  congr 1
  funext a
  refine Fin.ext ?_
  have hb := hlab (ix1 b)
  have hi : (lab (ix1 b)).toInt = ((lab (ix1 b)).toNat : ℤ) := StableHlo.Predicate.toInt_eq_toNat_of_lt (by omega)
  match a with
  | ⟨0, _⟩ =>
    show min (broadcastInDim (s := S1024) S1024x1 ![0] Facts₀.bcast_S1024_S1024x1_0 (labSel lab) (ix2 b (0 : Fin 1))).toInt.toNat (100000 - 1)
      = (lab (ix1 b)).toNat % 100000
    rw [bcastCol_apply, labSel_apply lab hlab, hi, Int.toNat_natCast, Nat.mod_eq_of_lt hb]
    omega
  | ⟨1, _⟩ => rfl

/-! ## The cosine of each row with its label's weight row, and the margin -/

/-- The host's row dot product of the two unit arrays. -/
def cosRow (x : FVec Ideal S1024x256 .f32) (lab : IVec S1024 32) (w : FVec Ideal S100000x256 .f32) : FVec Ideal S1024 .f32 :=
  Host.reduceAdd (mulf (rowUnit x) (rowUnit (tgtRows lab w))) (constant (F := Ideal) S_ .f32 0x00000000#32)
    Facts₀.reducesTo_S1024x256_S1024_d1 Facts₀.h_S_

theorem cosRow_apply (x : FVec Ideal S1024x256 .f32) (lab : IVec S1024 32) (w : FVec Ideal S100000x256 .f32)
    (hlab : ∀ j, (lab j).toNat < 100000) (b : Fin 1024) :
    cosRow x lab w (ix1 b) = Cert.Spec.cosv (Cert.Spec.rowX x b) (Cert.Spec.rowW w (Cert.Spec.labC lab b)) := by
  unfold cosRow
  rw [rowSum_apply]
  unfold Cert.Spec.cosv
  refine Finset.sum_congr rfl fun d _ => ?_
  rw [mulf_apply, rowUnit_apply, rowUnit_apply]
  have e : (fun d' => tgtRows lab w (ix2 b d')) = Cert.Spec.rowW w (Cert.Spec.labC lab b) :=
    funext fun d' => tgtRows_apply lab w hlab b d'
  rw [e]
  rfl

/-- The host's margin on a vector of cosines, scaled by s and laid out as a column. -/
def tgtCol (t : FVec Ideal S1024 .f32) : FVec Ideal S1024x1 .f32 :=
  shapeCast S1024x1
    (mulf (broadcastInDim (s := S_) S1024 ![] Facts₀.bcast_S_S1024 (constant (F := Ideal) S_ .f32 0x42480000#32))
      (select (cmpf .ogt t (broadcastInDim (s := S_) S1024 ![] Facts₀.bcast_S_S1024 (constant (F := Ideal) S_ .f32 0x00000000#32)))
        (subf (mulf t (broadcastInDim (s := S_) S1024 ![] Facts₀.bcast_S_S1024 (constant (F := Ideal) S_ .f32 0x3F60A940#32)))
          (mulf (Host.sqrt (maximumf
              (subf (broadcastInDim (s := S_) S1024 ![] Facts₀.bcast_S_S1024 (constant (F := Ideal) S_ .f32 0x3F800000#32)) (mulf t t))
              (broadcastInDim (s := S_) S1024 ![] Facts₀.bcast_S_S1024 (constant (F := Ideal) S_ .f32 0x00000000#32))))
            (broadcastInDim (s := S_) S1024 ![] Facts₀.bcast_S_S1024 (constant (F := Ideal) S_ .f32 0x3EF57744#32))))
        t))
    Facts₀.shapeCasts_S1024_S1024x1

theorem tgtCol_apply (t : FVec Ideal S1024 .f32) (b : Fin 1024) :
    tgtCol t (ix2 b (0 : Fin 1)) = Cert.Spec.scale * Cert.Spec.marginK (t (ix1 b)) := by
  unfold tgtCol
  rw [reshapeCol_apply]
  show Ideal.ofBits .f32 0x42480000#32 * Scalar.select (Ideal.cmp .ogt (t (ix1 b)) (Ideal.ofBits .f32 0x00000000#32))
      (t (ix1 b) * Ideal.ofBits .f32 0x3F60A940#32
        - Ideal.sqrt (max (Ideal.ofBits .f32 0x3F800000#32 - t (ix1 b) * t (ix1 b)) (Ideal.ofBits .f32 0x00000000#32))
          * Ideal.ofBits .f32 0x3EF57744#32)
      (t (ix1 b)) = _
  rw [Ideal.ofBits_zero_f32]
  rfl

/-! ## The launch's computed operands as terms of the arguments -/

theorem V_v10_eq : (V (F := Ideal) m c main_v10 : S1024x256.Idx → EReal)
    = truncf .bf16 (mulf (rowUnit (argX m c))
        (broadcastInDim (s := S_) S1024x256 ![] Facts₀.bcast_S_S1024x256 (constant (F := Ideal) S_ .f32 0x42480000#32))) Facts₀.bitsLt_bf16_f32 := by
  dsimp only [Gen.V]
  simp only [Gen.hostOps0, Gen.hostOps0_1, Gen.hostOps0_2, List.flatten_cons, List.flatten_nil, List.append_nil, List.cons_append, List.nil_append]
  after_results
  rfl

theorem V_v45_eq : (V (F := Ideal) m c main_v45 : S1024x1.Idx → BitVec 32)
    = shapeCast S1024x1 (argL m c) Facts₀.shapeCasts_S1024_S1024x1 := by
  dsimp only [Gen.V]
  simp only [Gen.hostOps0, Gen.hostOps0_1, Gen.hostOps0_2, List.flatten_cons, List.flatten_nil, List.append_nil, List.cons_append, List.nil_append]
  after_results
  rfl

theorem V_v44_eq : (V (F := Ideal) m c main_v44 : S1024x1.Idx → EReal)
    = tgtCol (cosRow (argX m c) (argL m c) (argW m c)) := by
  dsimp only [Gen.V]
  simp only [Gen.hostOps0, Gen.hostOps0_1, Gen.hostOps0_2, List.flatten_cons, List.flatten_nil, List.append_nil, List.cons_append, List.nil_append]
  after_results_simp
  rfl

end HostVal

open HostVal

/-! ## The three operands read at an entry -/

/-- The first operand: the unit input scaled by `s`. -/
theorem V_xs (b : Fin 1024) (d : Fin 256) :
    (V (F := Ideal) m c main_v10 : S1024x256.Idx → EReal) (ix2 b d) = Cert.Spec.unit (Cert.Spec.rowX (argX m c) b) d * Cert.Spec.scale := by
  rw [V_v10_eq]
  show rowUnit (argX m c) (ix2 b d) * Ideal.ofBits .f32 0x42480000#32 = _
  rw [rowUnit_apply]
  rfl

/-- The third operand: the labels as a column. -/
theorem V_lab (b : Fin 1024) :
    (V (F := Ideal) m c main_v45 : S1024x1.Idx → BitVec 32) (ix2 b (0 : Fin 1)) = argL m c (ix1 b) := by
  rw [V_v45_eq]
  exact reshapeCol_apply _ b

/-- The fourth operand: the scaled target value of each row. -/
theorem V_tgt (hlab : ∀ j, (argL m c j).toNat < 100000) (b : Fin 1024) :
    (V (F := Ideal) m c main_v44 : S1024x1.Idx → EReal) (ix2 b (0 : Fin 1))
      = Cert.Spec.scale * Cert.Spec.marginK (Cert.Spec.cosv (Cert.Spec.rowX (argX m c) b) (Cert.Spec.rowW (argW m c) (Cert.Spec.labC (argL m c) b))) := by
  rw [V_v44_eq, tgtCol_apply, cosRow_apply _ _ _ hlab]

end Cert.KernelIdeal.KValue

end
-- ==== Proof.KI.Cover.lean ====
/-
  The result's blocks cover its array: the entry in column c lies in the block of step `c / 1536`, which spans columns
  `1536 (c / 1536) … ` up to the array's end or the block's, whichever comes first, and all 1024 rows.
-/
import proofs.«427160_j39676907888373_3_alg».proof.Proof.Gen.KernelIdeal.Points
import proofs.«427160_j39676907888373_3_alg».proof.Proof.Gen.KernelIdeal.Launch
import Idealize.ShloMosaic.Lib.Pipeline.Value
import Idealize.ShloMosaic.Lib.ValueIdx

set_option maxRecDepth 16384

noncomputable section

namespace Cert.KernelIdeal.Cover

open Cert.KernelIdeal Cert.KernelIdeal.Gen
open Idealize.ShloMosaic Idealize.ShloMosaic.TcCoe Idealize.ShloMosaic.ValueIdx Idealize.SL.Sem
open Idealize.ShloMosaic.Pipeline (Cfg Window)

/-! ## The result's blocks, as index ranges

The result window's block at step `t` starts at row 0 and column `1536 t`; it has all 1024 rows, and of its 1536 columns
those that are still inside the 100000-column array: 1536 of them at steps 0 to 64, and 160 at step 65
(`100000 = 65 · 1536 + 160`). -/

/-- The block's position and cut sizes at every step, decided over the grid. -/
theorem blk_facts : ∀ t : Fin cfg0.N,
    win0_4.index t (0 : Fin 2) = 0 ∧ win0_4.index t (1 : Fin 2) = t.val
    ∧ win0_4.xsize (grid0.coords t) (0 : Fin 2) = 1024
    ∧ win0_4.xsize (grid0.coords t) (1 : Fin 2) = min 1536 (100000 - 1536 * t.val) :=
  (by decide +kernel : ∀ t : Fin grid0.N,
    win0_4.index t (0 : Fin 2) = 0 ∧ win0_4.index t (1 : Fin 2) = t.val
    ∧ win0_4.xsize (grid0.coords t) (0 : Fin 2) = 1024
    ∧ win0_4.xsize (grid0.coords t) (1 : Fin 2) = min 1536 (100000 - 1536 * t.val))

/-- An entry of the array is in step `t`'s block iff its column is among the block's columns inside the array (every row
    is: the blocks span the rows). -/
theorem mem_blk (t : Fin cfg0.N) (i : S1024x100000.Idx) :
    i ∈ ((cfg0.win 4).blk t).view.set
      ↔ 1536 * t.val ≤ (i 1).val ∧ (i 1).val < 1536 * t.val + win0_4.xsize (grid0.coords t) (1 : Fin 2) := by
  show i ∈ ((View.whole main_v46).slice (win0_4.rect t)).set ↔ _
  rw [View.set_slice_whole, Rect.mem_set_unit]
  obtain ⟨e0, e1, s0, s1⟩ := blk_facts t
  have h0 : (i 0).val < 1024 := (i 0).isLt
  constructor
  · intro h
    have b1 : win0_4.index t (1 : Fin 2) * 1536 ≤ (i 1).val
        ∧ (i 1).val < win0_4.index t (1 : Fin 2) * 1536 + win0_4.xsize (grid0.coords t) (1 : Fin 2) := h 1
    rw [e1] at b1; omega
  · intro h a
    match a with
    | ⟨0, _⟩ =>
      show win0_4.index t (0 : Fin 2) * 1024 ≤ (i 0).val
        ∧ (i 0).val < win0_4.index t (0 : Fin 2) * 1024 + win0_4.xsize (grid0.coords t) (0 : Fin 2)
      rw [e0, s0]; omega
    | ⟨1, _⟩ =>
      show win0_4.index t (1 : Fin 2) * 1536 ≤ (i 1).val
        ∧ (i 1).val < win0_4.index t (1 : Fin 2) * 1536 + win0_4.xsize (grid0.coords t) (1 : Fin 2)
      rw [e1]; omega

/-- Every entry of the array lies in some step's block. -/
theorem cover (i : S1024x100000.Idx) : ∃ t : Fin cfg0.N, (cfg0.win 4).flush t = true ∧ i ∈ ((cfg0.win 4).blk t).view.set := by
  have h1 : (i 1).val < 100000 := (i 1).isLt
  have hN : (i 1).val / 1536 < cfg0.N := by
    show (i 1).val / 1536 < grid0.N
    rw [Gen.N_0]; omega
  refine ⟨⟨(i 1).val / 1536, hN⟩, flush0_4 _, ?_⟩
  rw [mem_blk]
  obtain ⟨-, -, -, s1⟩ := blk_facts ⟨(i 1).val / 1536, hN⟩
  rw [s1]
  show 1536 * ((i 1).val / 1536) ≤ (i 1).val
    ∧ (i 1).val < 1536 * ((i 1).val / 1536) + min 1536 (100000 - 1536 * ((i 1).val / 1536))
  omega

end Cert.KernelIdeal.Cover

end
-- ==== Proof.KI.Final.lean ====
/-
  The result array after the run, in closed form: the logits as the kernel computes them, `Gker` of the three
  arguments. Step `t` writes back columns `1536 t … 1536 t + 1535` of the array (the last step only the 160 columns below
  100000), and what it writes at (b, 1536 t + j) is the kernel's entry for row b and class `1536 t + j`: the staged scaled
  unit input, label column and target column are the host's values of the arguments, and row j of the weight tile is
  row `1536 t + j` of the weights. Every column lies in the block of step `c / 1536`, so the blocks cover the array.
-/
import proofs.«427160_j39676907888373_3_alg».proof.Proof.KI.Frame
import proofs.«427160_j39676907888373_3_alg».proof.Proof.KI.Payload
import proofs.«427160_j39676907888373_3_alg».proof.Proof.KI.Host
import proofs.«427160_j39676907888373_3_alg».proof.Proof.KI.Cover
import Idealize.ShloMosaic.Lib.Pipeline.Value

set_option maxRecDepth 16384

noncomputable section

open scoped BigOperators

namespace Cert.KernelIdeal.Final

open Cert.KernelIdeal Cert.KernelIdeal.Gen Cert.KernelIdeal.Body Cert.KernelIdeal.FrameData Cert.KernelIdeal.KValue
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (c : Dev nD)

/-- The kernel's logits over the whole array, of core `c`'s arguments. -/
abbrev G : S1024x100000.Idx → EReal := Cert.Spec.Gker (argX m c) (argL m c) (argW m c)

/-- The printed index maps and cuts, decided once over the 66 steps. -/
theorem idx_facts : ∀ t : Fin cfg0.N,
    win0_0.index t (0 : Fin 2) = 0 ∧ win0_0.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_1.index t (0 : Fin 2) = t.val ∧ win0_1.index t (1 : Fin 2) = 0
    ∧ win0_4.index t (0 : Fin 2) = 0 ∧ win0_4.index t (1 : Fin 2) = t.val
    ∧ ((grid0.coords t) 0).val = t.val :=
  (by decide +kernel : ∀ t : Fin grid0.N, _)

/-- What each transfer moves, decided once over the 66 steps: the result tile is cut on its class axis exactly as the weight
    tile is on its row axis, to `min 1536 (100000 - 1536 t)` classes; the other axes are whole. -/
theorem cut_facts : ∀ t : Fin cfg0.N,
    win0_4.xsize (grid0.coords t) (0 : Fin 2) = 1024
    ∧ win0_4.xsize (grid0.coords t) (1 : Fin 2) = win0_1.xsize (grid0.coords t) (0 : Fin 2)
    ∧ win0_1.xsize (grid0.coords t) (1 : Fin 2) = 256
    ∧ win0_1.xsize (grid0.coords t) (0 : Fin 2) = min 1536 (100000 - 1536 * t.val) :=
  (by decide +kernel : ∀ t : Fin grid0.N, _)

/-! ## The four staged blocks, read at an entry -/

/-- The three whole-array blocks at step `t`, at their literal types. -/
abbrev xblk (t : Fin cfg0.N) : Vec Ideal S1024x256 .bf16 := iblk (F := Ideal) m c 0 t
abbrev lblk (t : Fin cfg0.N) : Vec Ideal S1024x1 .i32 := iblk (F := Ideal) m c 2 t
abbrev tblk (t : Fin cfg0.N) : Vec Ideal S1024x1 .f32 := iblk (F := Ideal) m c 3 t
/-- The weight tile at its literal type. -/
abbrev wblk (t : Fin cfg0.N) : Vec Ideal S1536x256 .f32 := wtile (F := Ideal) m c t

/-- Window 0's block is the whole scaled unit input at every step. -/
theorem xblk_apply (t : Fin cfg0.N) (b : Fin 1024) (d : Fin 256) :
    xblk m c t (ix2 b d) = Cert.Spec.unit (Cert.Spec.rowX (argX m c) b) d * Cert.Spec.scale := by
  obtain ⟨e00, e01, -⟩ := idx_facts t
  refine Eq.trans ?_ (V_xs m c b d)
  show (V (F := Ideal) m c main_v10 : S1024x256.Idx → EReal) (((cfg0.win 0).blk t).view.emb (ix2 b d)) = _
  congr 1
  funext a; apply Fin.ext
  match a with
  | ⟨0, _⟩ => show win0_0.index t (0 : Fin 2) * 1024 + 1 * b.val = b.val; omega
  | ⟨1, _⟩ => show win0_0.index t (1 : Fin 2) * 256 + 1 * d.val = d.val; omega

/-- Window 2's block is the whole label column at every step. -/
theorem lblk_apply (t : Fin cfg0.N) (b : Fin 1024) : lblk m c t (ix2 b (0 : Fin 1)) = argL m c (ix1 b) := by
  obtain ⟨-, -, e20, e21, -⟩ := idx_facts t
  refine Eq.trans ?_ (V_lab m c b)
  show (V (F := Ideal) m c main_v45 : S1024x1.Idx → BitVec 32) (((cfg0.win 2).blk t).view.emb (ix2 b (0 : Fin 1))) = _
  congr 1
  funext a; apply Fin.ext
  match a with
  | ⟨0, _⟩ => show win0_2.index t (0 : Fin 2) * 1024 + 1 * b.val = b.val; omega
  | ⟨1, _⟩ => show win0_2.index t (1 : Fin 2) * 1 + 1 * 0 = 0; omega

/-- Window 3's block is the whole target column at every step. -/
theorem tblk_apply (hlab : ∀ j, (argL m c j).toNat < 100000) (t : Fin cfg0.N) (b : Fin 1024) :
    tblk m c t (ix2 b (0 : Fin 1))
      = Cert.Spec.scale * Cert.Spec.marginK (Cert.Spec.cosv (Cert.Spec.rowX (argX m c) b)
          (Cert.Spec.rowW (argW m c) (Cert.Spec.labC (argL m c) b))) := by
  obtain ⟨-, -, -, -, e30, e31, -⟩ := idx_facts t
  refine Eq.trans ?_ (V_tgt m c hlab b)
  show (V (F := Ideal) m c main_v44 : S1024x1.Idx → EReal) (((cfg0.win 3).blk t).view.emb (ix2 b (0 : Fin 1))) = _
  congr 1
  funext a; apply Fin.ext
  match a with
  | ⟨0, _⟩ => show win0_3.index t (0 : Fin 2) * 1024 + 1 * b.val = b.val; omega
  | ⟨1, _⟩ => show win0_3.index t (1 : Fin 2) * 1 + 1 * 0 = 0; omega

/-- Row `jj` of the weight tile at step `t`, when it lies inside the array, is row `1536 t + jj` of the weights: the
    tile is its fetched part there, and the fetched part is the array's block at rows `1536 t …`. -/
theorem wblk_apply (t : Fin cfg0.N) (jj : Fin 1536) (d : Fin 256)
    (hjj : jj.val < win0_1.xsize (grid0.coords t) (0 : Fin 2)) (hrow : 1536 * t.val + jj.val < 100000) :
    wblk m c t (ix2 jj d) = Cert.Spec.rowW (argW m c) ⟨1536 * t.val + jj.val, hrow⟩ d := by
  obtain ⟨-, -, -, -, -, -, e10, e11, -⟩ := idx_facts t
  obtain ⟨-, -, hx1, -⟩ := cut_facts t
  have hd : d.val < win0_1.xsize (grid0.coords t) (1 : Fin 2) := by rw [hx1]; exact d.isLt
  let y : (win0_1.xblock (grid0.coords t)).Idx := fun a => match a with
    | ⟨0, _⟩ => ⟨jj.val, hjj⟩
    | ⟨1, _⟩ => ⟨d.val, hd⟩
  have hy : (ix2 jj d : S1536x256.Idx) = win0_1.xinj (grid0.coords t) y :=
    funext fun a => Fin.ext (match a with | ⟨0, _⟩ => rfl | ⟨1, _⟩ => rfl)
  show wtile (F := Ideal) m c t (ix2 jj d) = _
  unfold wtile
  rw [hy, Window.fill_xinj]
  refine (congrFun (V_main_arg2 (F := Ideal) m c) (((cfg0.win 1).blk t).view.emb y)).trans ?_
  show argW m c (((cfg0.win 1).blk t).view.emb y) = argW m c (ix2 ⟨1536 * t.val + jj.val, hrow⟩ d)
  congr 1
  funext a; apply Fin.ext
  match a with
  | ⟨0, _⟩ => show win0_1.index t (0 : Fin 2) * 1536 + 1 * jj.val = 1536 * t.val + jj.val; omega
  | ⟨1, _⟩ => show win0_1.index t (1 : Fin 2) * 256 + 1 * d.val = d.val; omega

/-! ## The result tile at an entry -/

/-- The result tile at step `t`, entry (b, jj): the body's value there of the four staged blocks. -/
theorem otile_apply (t : Fin cfg0.N) (b : Fin 1024) (jj : Fin 1536) :
    otile (F := Ideal) m c t (ix2 b jj)
      = if lblk m c t (ix2 b (0 : Fin 1)) = BitVec.ofNat 32 (((grid0.coords t) 0).val * 1536 + jj.val)
        then tblk m c t (ix2 b (0 : Fin 1))
        else ∑ d : Fin 256, xblk m c t (ix2 b d)
          * (wblk m c t (ix2 jj d)
            * Ideal.rsqrt (max (∑ d' : Fin 256, wblk m c t (ix2 jj d') * wblk m c t (ix2 jj d')) Cert.Spec.epsSq)) := by
  unfold otile
  rw [outTile_eq]
  exact pay_apply (grid0.coords t) (xblk m c t) (wblk m c t) (lblk m c t) (tblk m c t) b jj

/-- A label word below 100000 is the word of a column `n` below 100000 exactly when the label's class is `n`. -/
theorem label_test (lab : Cert.Spec.SL.Idx → BitVec 32) (hlab : ∀ j, (lab j).toNat < 100000) (b : Fin 1024) (n : ℕ)
    (hn : n < 100000) : lab (ix1 b) = BitVec.ofNat 32 n ↔ (Cert.Spec.labC lab b).val = n := by
  have hl := hlab (ix1 b)
  show _ ↔ (lab (ix1 b)).toNat % 100000 = n
  rw [Nat.mod_eq_of_lt hl]
  constructor
  · intro h; rw [h, BitVec.toNat_ofNat]; exact Nat.mod_eq_of_lt (by omega)
  · intro h; apply BitVec.eq_of_toNat_eq; rw [BitVec.toNat_ofNat, h]; exact (Nat.mod_eq_of_lt (by omega)).symm

/-- The tile's entry (b, jj) at step `t`, for a row `jj` of the weight tile inside the array, is the kernel's logit of row b
    and class `1536 t + jj`: the staged operands are the host's values of the arguments, the tile's row is that class's weight
    row, and the label test against the column's word is the test of the label's class against the column. -/
theorem entry_eq (hlab : ∀ j, (argL m c j).toNat < 100000) (t : Fin cfg0.N) (b : Fin 1024) (jj : Fin 1536)
    (hjx : jj.val < win0_1.xsize (grid0.coords t) (0 : Fin 2)) (hrow : 1536 * t.val + jj.val < 100000) :
    otile (F := Ideal) m c t (ix2 b jj) = G m c (ix2 b ⟨1536 * t.val + jj.val, hrow⟩) := by
  obtain ⟨-, -, -, -, -, -, -, -, -, -, eg⟩ := idx_facts t
  rw [otile_apply, lblk_apply, tblk_apply m c hlab, eg]
  simp only [xblk_apply, wblk_apply m c t jj _ hjx hrow]
  show _ = Cert.Spec.kerEntry (decide ((Cert.Spec.labC (argL m c) b).val = 1536 * t.val + jj.val))
    (Cert.Spec.rowX (argX m c) b) (Cert.Spec.rowW (argW m c) ⟨1536 * t.val + jj.val, hrow⟩)
    (Cert.Spec.rowW (argW m c) (Cert.Spec.labC (argL m c) b))
  unfold Cert.Spec.kerEntry
  have hiff := label_test (argL m c) hlab b (t.val * 1536 + jj.val) (by omega)
  by_cases hh : (Cert.Spec.labC (argL m c) b).val = 1536 * t.val + jj.val
  · rw [if_pos (hiff.2 (by omega)), if_pos (decide_eq_true hh)]
  · rw [if_neg (fun h => hh (by have := hiff.1 h; omega)), if_neg (by simpa using hh)]
    rfl

/-- What step `t` writes back is the block of `G` it covers. -/
theorem flushed_eq (hlab : ∀ j, (argL m c j).toNat < 100000) (t : Fin cfg0.N) :
    (dats (F := Ideal) m 0 c).flushed 4 t = ((cfg0.win 4).blk t).view.read (Elt Ideal) (G m c) := by
  show (cfg0.win 4).cut (grid0.coords t) ((dats (F := Ideal) m 0 c).after 4 t) = _
  rw [after0_4]
  obtain ⟨-, -, -, -, -, -, -, -, e40, e41, -⟩ := idx_facts t
  obtain ⟨hx40, hx41, -, hx10⟩ := cut_facts t
  funext j
  have hj0 : (j 0).val < win0_4.xsize (grid0.coords t) (0 : Fin 2) := (j 0).isLt
  have hj1 : (j 1).val < win0_4.xsize (grid0.coords t) (1 : Fin 2) := (j 1).isLt
  have hb : (j 0).val < 1024 := by omega
  have hjx : (j 1).val < win0_1.xsize (grid0.coords t) (0 : Fin 2) := by omega
  have hjj : (j 1).val < 1536 := by omega
  have hrow : 1536 * t.val + (j 1).val < 100000 := by omega
  have hL : win0_4.xinj (grid0.coords t) j = (ix2 ⟨(j 0).val, hb⟩ ⟨(j 1).val, hjj⟩ : S1024x1536.Idx) :=
    funext fun a => Fin.ext (match a with | ⟨0, _⟩ => rfl | ⟨1, _⟩ => rfl)
  have hR : ((cfg0.win 4).blk t).view.emb j
      = (ix2 ⟨(j 0).val, hb⟩ ⟨1536 * t.val + (j 1).val, hrow⟩ : S1024x100000.Idx) :=
    funext fun a => Fin.ext (match a with
      | ⟨0, _⟩ => (show win0_4.index t (0 : Fin 2) * 1024 + 1 * (j 0).val = (j 0).val by omega)
      | ⟨1, _⟩ => (show win0_4.index t (1 : Fin 2) * 1536 + 1 * (j 1).val = 1536 * t.val + (j 1).val by omega))
  show otile (F := Ideal) m c t (win0_4.xinj (grid0.coords t) j) = G m c (((cfg0.win 4).blk t).view.emb j)
  rw [hL, hR]
  exact entry_eq m c hlab t ⟨(j 0).val, hb⟩ ⟨(j 1).val, hjj⟩ hjx hrow

/-- The result array after the last write-back. -/
theorem final (hlab : ∀ j, (argL m c j).toNat < 100000) : (dats (F := Ideal) m 0 c).arrAt 4 cfg0.N = G m c :=
  (dats (F := Ideal) m 0 c).arrAt_eq_of_cover 4 (G m c) (fun t _ => flushed_eq m c hlab t) Cert.KernelIdeal.Cover.cover

end Cert.KernelIdeal.Final

end
-- ==== Proof.Pre.lean ====
/-
  What the precondition says, read back from its printed predicate: every entry of the input and of the weights is a
  real number (its absolute value lies strictly below +∞), and every label, read as an unsigned word, is a class
  index below 100000 (signed, it is at least 0 and less than 100000).
-/
import proofs.«427160_j39676907888373_3_alg».proof.Pre_finite_inputs
import proofs.«427160_j39676907888373_3_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreFacts

open Idealize.ShloMosaic Cert.Pre_finite_inputs

/-- The rank-0 shape has exactly one index: a conjunction over all axes lands in a single cell. -/
theorem subsingleton_S_ : Subsingleton S_.Idx := ⟨fun _ _ => funext fun d => d.elim0⟩

/-- An extended real whose absolute value `max a (-a)` lies strictly below +∞ is a real number: the f32 word
    0x7F800000 denotes ⊤, and at either infinity `max a (-a)` is ⊤ itself, which is not below ⊤. -/
theorem real_of_abs_lt_top (a : EReal)
    (h : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at h
  induction a using EReal.rec with
  | bot => simp [Ideal.cmp] at h
  | coe r => exact ⟨r, rfl⟩
  | top => simp [Ideal.cmp] at h

/-- A 32-bit word that is, signed, at least 0 and less than 100000 is, unsigned, less than 100000: a non-negative
    signed value is the unsigned value. -/
theorem toNat_lt_of_signed_range (a : BitVec 32) (h0 : IntOp.cmpi .sge a 0#32 = 1#1)
    (h1 : IntOp.cmpi .slt a 100000#32 = 1#1) : a.toNat < 100000 := by
  simp only [IntOp.cmpi, StableHlo.Predicate.ofBool_eq_one_iff, BitVec.sle, BitVec.slt, decide_eq_true_eq] at h0 h1
  have z : (0#32 : BitVec 32).toInt = 0 := by decide
  have c : (100000#32 : BitVec 32).toInt = 100000 := by decide
  rw [z] at h0
  rw [c] at h1
  have hcond := BitVec.toInt_eq_toNat_cond a
  have hlt := a.isLt
  split_ifs at hcond <;> omega

/-- The precondition all ones: finite input, labels in range, finite weights. The predicate is a conjunction of three
    conjunctions over all entries; each of them being 1 makes every entry's test 1, and the tests are read above. -/
theorem decode [Cert.Pre_finite_inputs.Facts] (x : FVec Ideal S1024x256 .f32) (lab : IVec S1024 32) (w : FVec Ideal S100000x256 .f32)
    (h : Cert.Pre_finite_inputs.fn (F := Ideal) x lab w = fun _ => 1#1) :
    (∀ i, ∃ r : ℝ, x i = (r : EReal)) ∧ (∀ j, (lab j).toNat < 100000) ∧ (∀ i, ∃ r : ℝ, w i = (r : EReal)) := by
  haveI := subsingleton_S_
  have h0 := congrFun h ValueIdx.ix0
  unfold Cert.Pre_finite_inputs.fn at h0
  dsimp only at h0
  obtain ⟨hxw, hl⟩ := IntOp.andi_eq_one.1 h0
  obtain ⟨hx, hw⟩ := IntOp.andi_eq_one.1 hxw
  refine ⟨fun i => ?_, fun j => ?_, fun i => ?_⟩
  · exact real_of_abs_lt_top (x i) (Host.reduce_andi_all _ _ _ _ _ hx i)
  · obtain ⟨ha, hb⟩ := IntOp.andi_eq_one.1 (Host.reduce_andi_all _ _ _ _ _ hl j)
    exact toNat_lt_of_signed_range (lab j) ha hb
  · exact real_of_abs_lt_top (w i) (Host.reduce_andi_all _ _ _ _ _ hw i)

end Cert.PreFacts

end
-- ==== Proof.KI.Run.lean ====
/-
  The idealized kernel's run with its result named: under the precondition the program ends with the result array
  holding the kernel's logits `Gker` of the three arguments, and the arguments unchanged.
-/
import proofs.«427160_j39676907888373_3_alg».proof.Proof.KI.Exact
import proofs.«427160_j39676907888373_3_alg».proof.Proof.KI.Final
import proofs.«427160_j39676907888373_3_alg».proof.Proof.Pre
import proofs.«427160_j39676907888373_3_alg».proof.Defs

noncomputable section

namespace Cert.KernelIdeal.KRun

open Cert.KernelIdeal Cert.KernelIdeal.Gen Cert.KernelIdeal.FrameData Cert.KernelIdeal.KValue
open Idealize.ShloMosaic Idealize.ShloMosaic.TcCoe Idealize.SL.Sem

variable (m : (ℓ : Loc nD τ sig) → Buf (Elt Ideal) ℓ) (ρ : Dev nD → PrngReg)

/-- What the precondition gives on core `c`: finite input and weights, labels that are class indices. -/
theorem pre_facts [Cert.Pre_finite_inputs.Facts] (hpre : Cert.Pre_KernelIdeal m) (c : Dev nD) :
    (∀ i, ∃ r : ℝ, argX m c i = (r : EReal)) ∧ (∀ j, (argL m c j).toNat < 100000) ∧ (∀ i, ∃ r : ℝ, argW m c i = (r : EReal)) :=
  Cert.PreFacts.decode _ _ _ (hpre c)

/-- The run, the result at `Gker`. -/
theorem run [Cert.Pre_finite_inputs.Facts] (hpre : Cert.Pre_KernelIdeal m) :
    θ_run defs (onTc (τ := τ) (main (F := Ideal))) ⟨m, fun _ => 0, ρ⟩ (fun r => ∀ c : Dev nD,
      r.2.mem ((c.tc : Thread nD τ).loc main_v46) = Cert.Spec.Gker (argX m c) (argL m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 4).trans (Cert.KernelIdeal.Final.final m c (pre_facts m hpre c).2.1),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 1).trans (((dats m 0 c).arrAt_in 1 rfl _).trans ((A_eq m c 1).trans (V_main_arg2 m c)))⟩)
    (Cert.KernelIdeal.Exact.run_main m ρ)

end Cert.KernelIdeal.KRun

end
-- ==== Proof.Ref.Gen.lean ====
/- The reference's generated run and its read-at-an-index lemmas, gathered for the modules that bridge them. -/
import proofs.«427160_j39676907888373_3_alg».proof.Proof.Gen.ReferenceIdeal.Run
import proofs.«427160_j39676907888373_3_alg».proof.Proof.Gen.ReferenceIdeal.Read
-- ==== Proof.LibScatterSet.lean ====
import Idealize.ShloMosaic.PureOps.ShapeOps
import Idealize.ShloMosaic.PureOps.Dims
import Idealize.ShloMosaic.Lib.ValueIdx
import Idealize.ShloMosaic.Lib.ValueLayout
import Idealize.ShloMosaic.Lib.IdealHost

/-!
# An overwriting scatter at one column offset, read at an index

The host scatter with body "return the update" writes a rank-2 update of W columns into a rank-2
operand of C columns, all rows kept, the columns shifted by one start offset read off a one-entry
index vector. Update element (r, q) lands at operand element (r, o + q) when o + q < C and is
dropped otherwise. Since distinct update elements land at distinct operand elements, the left fold
over the update indices, read at (k, c), is the update's element (k, c - o) when o ≤ c < o + W and
the operand's own element otherwise.
-/

namespace Cert.Lib.ScatterSet

open Idealize.ShloMosaic Idealize.ShloMosaic.ValueIdx

/-! ## A left fold of pointwise updates, read at one point -/

section Fold
variable {ι κ α : Type}

/-- If no step of the fold changes the value at `i`, the fold at `i` is the start value at `i`. -/
theorem foldl_miss (stepf : (ι → α) → κ → (ι → α)) (i : ι) :
    ∀ (l : List κ) (r : ι → α), (∀ n ∈ l, ∀ r, stepf r n i = r i) → l.foldl stepf r i = r i
  | [], _, _ => rfl
  | n :: l, r, h => by
    rw [List.foldl_cons, foldl_miss stepf i l _ (fun m hm => h m (List.mem_cons_of_mem _ hm)),
      h n List.mem_cons_self]

/-- If exactly one step `n0` of a duplicate-free list sets the value at `i` to `v` (whatever the accumulator)
    and every other step leaves the value at `i` alone, the fold at `i` is `v`: the steps before `n0` are
    forgotten and the steps after it miss. -/
theorem foldl_hit (stepf : (ι → α) → κ → (ι → α)) (i : ι) (v : α) (n0 : κ)
    (hn0 : ∀ r, stepf r n0 i = v) :
    ∀ (l : List κ) (r : ι → α), l.Nodup → n0 ∈ l →
      (∀ n ∈ l, n ≠ n0 → ∀ r, stepf r n i = r i) → l.foldl stepf r i = v
  | [], _, _, hm, _ => absurd hm List.not_mem_nil
  | n :: l, r, hnd, hm, h => by
    rw [List.foldl_cons]
    rcases List.nodup_cons.mp hnd with ⟨hnl, hnd'⟩
    by_cases hn : n = n0
    · subst hn
      rw [foldl_miss stepf i l _
        (fun m hm' => h m (List.mem_cons_of_mem _ hm') (fun e => hnl (e ▸ hm'))), hn0]
    · have hm0 : n0 ∈ l := by
        rcases List.mem_cons.mp hm with e | e
        · exact absurd e.symm hn
        · exact e
      exact foldl_hit stepf i v n0 hn0 l _ hnd' hm0 (fun m hm' => h m (List.mem_cons_of_mem _ hm'))

end Fold

/-! ## Where an update element lands

The dimension numbers are those of the two printed records: both update axes are window axes, no
operand axis is inserted, the one start component goes to operand axis 1, and the index vector lies
along axis 0 of the one-entry indices. They enter as equations on the record's fields, so that the
same text serves every row count `R`, operand width `C` and update width `W`. -/

section Landing
variable {R C W w : ℕ}

/-- The window coordinate on either operand axis is the update index's own coordinate on that axis. -/
theorem win (d : ScatterDims ⟨2, ![R, C]⟩ ⟨1, ![1]⟩ ⟨2, ![R, W]⟩)
    (h1 : d.updateWindowDims = [0, 1]) (h2 : d.insertedWindowDims = [])
    (jj : (⟨2, ![R, W]⟩ : Shape).Idx) :
    d.window jj 0 = (jj 0).val ∧ d.window jj 1 = (jj 1).val := by
  obtain ⟨uw, iw, sd, iv, wf⟩ := d
  simp only at h1 h2
  subst h1 h2
  exact ⟨rfl, rfl⟩

/-- The window starts at 0 on axis 0 (no start component names it) and at the signed value of the
    index vector's one entry on axis 1. -/
theorem st (d : ScatterDims ⟨2, ![R, C]⟩ ⟨1, ![1]⟩ ⟨2, ![R, W]⟩)
    (h3 : d.scatterDimsToOperandDims = [1])
    (idx : IVec ⟨1, ![1]⟩ w) (off : BitVec w) (hidx : ∀ b, idx b = off)
    (jj : (⟨2, ![R, W]⟩ : Shape).Idx) :
    d.start jj idx 0 = 0 ∧ d.start jj idx 1 = off.toInt := by
  obtain ⟨uw, iw, sd, iv, wf⟩ := d
  simp only at h3
  subst h3
  constructor
  · unfold ScatterDims.start
    rw [dif_neg (show ¬ (0 : Fin 2) ∈ [(1 : Fin 2)] by decide)]
  · unfold ScatterDims.start
    rw [dif_pos (List.mem_singleton.mpr rfl), hidx]

/-- An update element that lands at all lands in its own row, `o` columns to the right. -/
theorem landing (d : ScatterDims ⟨2, ![R, C]⟩ ⟨1, ![1]⟩ ⟨2, ![R, W]⟩)
    (h1 : d.updateWindowDims = [0, 1]) (h2 : d.insertedWindowDims = [])
    (h3 : d.scatterDimsToOperandDims = [1])
    (idx : IVec ⟨1, ![1]⟩ w) (off : BitVec w) (hidx : ∀ b, idx b = off) (o : ℕ) (hoff : off.toInt = (o : ℤ))
    (jj : (⟨2, ![R, W]⟩ : Shape).Idx) (i : (⟨2, ![R, C]⟩ : Shape).Idx)
    (h : d.resultIdx? jj idx = some i) : (i 0).val = (jj 0).val ∧ (i 1).val = o + (jj 1).val := by
  unfold ScatterDims.resultIdx? at h
  split at h
  · cases h
    constructor
    · show (d.start jj idx 0 + d.window jj 0).toNat = _
      rw [(st d h3 idx off hidx jj).1, (win d h1 h2 jj).1]; omega
    · show (d.start jj idx 1 + d.window jj 1).toNat = _
      rw [(st d h3 idx off hidx jj).2, (win d h1 h2 jj).2, hoff]; omega
  · cases h

/-- An update element whose shifted column is inside the operand does land, at that column of its row. -/
theorem landing_some (d : ScatterDims ⟨2, ![R, C]⟩ ⟨1, ![1]⟩ ⟨2, ![R, W]⟩)
    (h1 : d.updateWindowDims = [0, 1]) (h2 : d.insertedWindowDims = [])
    (h3 : d.scatterDimsToOperandDims = [1])
    (idx : IVec ⟨1, ![1]⟩ w) (off : BitVec w) (hidx : ∀ b, idx b = off) (o : ℕ) (hoff : off.toInt = (o : ℤ))
    (jj : (⟨2, ![R, W]⟩ : Shape).Idx) (hlt : o + (jj 1).val < C) :
    d.resultIdx? jj idx = some (ix2 (jj 0) ⟨o + (jj 1).val, hlt⟩) := by
  have hs := st d h3 idx off hidx jj
  have hw := win d h1 h2 jj
  have hall : ∀ a, 0 ≤ d.start jj idx a + d.window jj a ∧
      d.start jj idx a + d.window jj a < (⟨2, ![R, C]⟩ : Shape).size a := by
    intro a
    match a with
    | ⟨0, _⟩ =>
      show 0 ≤ d.start jj idx 0 + d.window jj 0 ∧ d.start jj idx 0 + ↑(d.window jj 0) < ((R : ℕ) : ℤ)
      rw [hs.1, hw.1]; have := idx2_lt0 jj; omega
    | ⟨1, _⟩ =>
      show 0 ≤ d.start jj idx 1 + d.window jj 1 ∧ d.start jj idx 1 + ↑(d.window jj 1) < ((C : ℕ) : ℤ)
      rw [hs.2, hw.2, hoff]; omega
  unfold ScatterDims.resultIdx?
  rw [dif_pos hall]
  congr 1
  funext a
  refine Fin.ext ?_
  match a with
  | ⟨0, _⟩ =>
    show (d.start jj idx 0 + d.window jj 0).toNat = (jj 0).val
    rw [hs.1, hw.1]; omega
  | ⟨1, _⟩ =>
    show (d.start jj idx 1 + d.window jj 1).toNat = o + (jj 1).val
    rw [hs.2, hw.2, hoff]; omega

/-! ## The scatter read at an index -/

/-- Inside the written columns: element (k, o + j) of the result is the update's element (k, j). The
    one update index that lands there is (k, j) itself; any other update index that landed there
    would have the same row and the same column, hence be (k, j). -/
theorem scatter_hit {α : Type} (d : ScatterDims ⟨2, ![R, C]⟩ ⟨1, ![1]⟩ ⟨2, ![R, W]⟩)
    (h1 : d.updateWindowDims = [0, 1]) (h2 : d.insertedWindowDims = [])
    (h3 : d.scatterDimsToOperandDims = [1])
    (idx : IVec ⟨1, ![1]⟩ w) (off : BitVec w) (hidx : ∀ b, idx b = off) (o : ℕ) (hoff : off.toInt = (o : ℤ))
    (x : (⟨2, ![R, C]⟩ : Shape).Idx → α) (upd : (⟨2, ![R, W]⟩ : Shape).Idx → α)
    (k : Fin R) (j : Fin W) (c : Fin C) (hc : c.val = o + j.val) :
    Host.scatter d (fun _ b => b) x idx upd (ix2 k c) = upd (ix2 k j) := by
  unfold Host.scatter
  refine foldl_hit _ (ix2 k c) (upd (ix2 k j)) ((⟨2, ![R, W]⟩ : Shape).rowMajor (ix2 k j)) ?_ _ x
    (List.nodup_finRange _) (List.mem_finRange _) ?_
  · intro r
    have hlt : o + ((ix2 k j : (⟨2, ![R, W]⟩ : Shape).Idx) 1).val < C := by
      show o + j.val < C
      have := c.isLt; omega
    have hl := landing_some d h1 h2 h3 idx off hidx o hoff (ix2 k j) hlt
    have he : (ix2 k c : (⟨2, ![R, C]⟩ : Shape).Idx) = ix2 k ⟨o + j.val, hlt⟩ := by
      congr 1; exact Fin.ext hc
    simp only [Equiv.symm_apply_apply]
    rw [hl]
    show (if ix2 k c = ix2 k ⟨o + j.val, hlt⟩ then upd (ix2 k j) else r (ix2 k c)) = upd (ix2 k j)
    rw [if_pos he]
  · intro n _ hne r
    generalize hjj : (⟨2, ![R, W]⟩ : Shape).rowMajor.symm n = jj
    cases hres : d.resultIdx? jj idx with
    | none => rfl
    | some i =>
      show (if ix2 k c = i then upd jj else r (ix2 k c)) = r (ix2 k c)
      rw [if_neg]
      intro e
      obtain ⟨e0, e1⟩ := landing d h1 h2 h3 idx off hidx o hoff jj i hres
      rw [← e] at e0 e1
      apply hne
      rw [← Equiv.symm_apply_eq, hjj, eq_ix2 jj]
      congr 1
      · exact Fin.ext e0.symm
      · refine Fin.ext ?_
        have e1' : c.val = o + (jj 1).val := e1
        omega

/-- Outside the written columns: no update element lands in column `c` when `c < o` or
    `o + W ≤ c`, so the result keeps the operand's element. -/
theorem scatter_miss {α : Type} (d : ScatterDims ⟨2, ![R, C]⟩ ⟨1, ![1]⟩ ⟨2, ![R, W]⟩)
    (h1 : d.updateWindowDims = [0, 1]) (h2 : d.insertedWindowDims = [])
    (h3 : d.scatterDimsToOperandDims = [1])
    (idx : IVec ⟨1, ![1]⟩ w) (off : BitVec w) (hidx : ∀ b, idx b = off) (o : ℕ) (hoff : off.toInt = (o : ℤ))
    (x : (⟨2, ![R, C]⟩ : Shape).Idx → α) (upd : (⟨2, ![R, W]⟩ : Shape).Idx → α)
    (k : Fin R) (c : Fin C) (hc : c.val < o ∨ o + W ≤ c.val) :
    Host.scatter d (fun _ b => b) x idx upd (ix2 k c) = x (ix2 k c) := by
  unfold Host.scatter
  refine foldl_miss _ (ix2 k c) _ x ?_
  intro n _ r
  generalize hjj : (⟨2, ![R, W]⟩ : Shape).rowMajor.symm n = jj
  cases hres : d.resultIdx? jj idx with
  | none => rfl
  | some i =>
    show (if ix2 k c = i then upd jj else r (ix2 k c)) = r (ix2 k c)
    rw [if_neg]
    intro e
    obtain ⟨_, e1⟩ := landing d h1 h2 h3 idx off hidx o hoff jj i hres
    rw [← e] at e1
    have e1' : c.val = o + (jj 1).val := e1
    have := idx2_lt1 jj
    omega

end Landing

end Cert.Lib.ScatterSet
-- ==== Proof.Ref.Value.lean ====
/-
  The reference's result, read one entry at a time: entry (b, c) of the scaled, margin-adjusted cosine matrix is
  `s · ψ(cos(x_b, w_label(b)))` where c is row b's label and `s · cos(x_b, w_c)` elsewhere — the specification's `Gref`.

  The stages in order. The two inputs are normalised row by row (sum of squares, square root, guard, division) and
  multiplied: entry (b, c) of the product is the cosine of row b of the input and row c of the weights. The label's cosine
  is gathered per row: a label below the class count is non-negative, so the wrap-around of negative labels leaves it, the
  gather's clamp leaves it, and the range test that would replace the gathered value by a fill value passes. The margin is
  applied to the gathered value elementwise. Last, the adjusted value is written back with an overwriting scatter whose
  index pair k is (k, label k): update k is the only one that lands in row k, so entry (b, c) of the result is the adjusted
  value of row b when c is b's label and the cosine otherwise; the whole is scaled by s.
-/
import proofs.«427160_j39676907888373_3_alg».proof.Proof.Ref.Gen
import proofs.«427160_j39676907888373_3_alg».proof.Proof.Spec
import proofs.«427160_j39676907888373_3_alg».proof.Proof.LibScatterSet
import Idealize.ShloMosaic.Lib.StableHlo.Predicate

noncomputable section

open scoped BigOperators

namespace Cert.RefValue

open Cert.ReferenceIdeal Cert.ReferenceIdeal.Gen Cert.ReferenceIdeal.Read Idealize.ShloMosaic Idealize.ShloMosaic.ValueIdx

/-! ## The cosine matrix -/

/-- The input array, the label array and the weight array. -/
abbrev XT := (⟨S1024x256, .f32⟩ : BufTy).Contents (Elt Ideal)
abbrev LT := (⟨S1024, .i32⟩ : BufTy).Contents (Elt Ideal)
abbrev WT := (⟨S100000x256, .f32⟩ : BufTy).Contents (Elt Ideal)

/-- The sum of squares of row `b` of the input. -/
theorem sumsq_x (x : XT) (b : Fin 1024) :
    val_main_v1 (F := Ideal) x (ix1 b) = Cert.Spec.sumSq (Cert.Spec.rowX x b) := by
  rw [val_main_v1_apply]
  simp only [val_main_cst_apply, val_main_v0_apply, Ideal.ofBits_def, Ideal.ofBits_zero_f32, zero_add, Ideal.mulf_def]
  unfold Cert.Spec.sumSq Cert.Spec.rowX
  refine Finset.sum_congr rfl fun k _ => ?_
  have e : idx_main_v1 (ix1 b) k = ix2 b k :=
    funext fun a => Fin.ext (by match a with | ⟨0, _⟩ => rfl | ⟨1, _⟩ => rfl)
  rw [e]

/-- The guarded norm of row `b` of the input. -/
theorem nrm_x (x : XT) (b : Fin 1024) :
    val_main_v5 (F := Ideal) x (ix2 b (0 : Fin 1)) = Cert.Spec.nrm (Cert.Spec.rowX x b) := by
  rw [val_main_v5_apply, val_main_v3_apply, val_main_v2_apply, val_main_v4_apply, val_main_cst_0_apply]
  have e : idx_main_v2 (ix2 b (0 : Fin 1)) = ix1 b :=
    funext fun a => Fin.ext (by match a with | ⟨0, _⟩ => rfl)
  rw [e, sumsq_x]
  rfl

/-- Row `b` of the input divided by its guarded norm. -/
theorem unit_x (x : XT) (b : Fin 1024) (d : Fin 256) :
    val_main_v7 (F := Ideal) x (ix2 b d) = Cert.Spec.unit (Cert.Spec.rowX x b) d := by
  rw [val_main_v7_apply, val_main_v6_apply]
  have e : idx_main_v6 (ix2 b d) = ix2 b (0 : Fin 1) :=
    funext fun a => Fin.ext (by match a with | ⟨0, _⟩ => rfl | ⟨1, _⟩ => rfl)
  rw [e, nrm_x]
  rfl

/-- The sum of squares of row `c` of the weights. -/
theorem sumsq_w (w : WT) (c : Fin 100000) :
    val_main_v9 (F := Ideal) w (ix1 c) = Cert.Spec.sumSq (Cert.Spec.rowW w c) := by
  rw [val_main_v9_apply]
  simp only [val_main_cst_1_apply, val_main_v8_apply, Ideal.ofBits_def, Ideal.ofBits_zero_f32, zero_add, Ideal.mulf_def]
  unfold Cert.Spec.sumSq Cert.Spec.rowW
  refine Finset.sum_congr rfl fun k _ => ?_
  have e : idx_main_v9 (ix1 c) k = ix2 c k :=
    funext fun a => Fin.ext (by match a with | ⟨0, _⟩ => rfl | ⟨1, _⟩ => rfl)
  rw [e]

/-- The guarded norm of row `c` of the weights. -/
theorem nrm_w (w : WT) (c : Fin 100000) :
    val_main_v13 (F := Ideal) w (ix2 c (0 : Fin 1)) = Cert.Spec.nrm (Cert.Spec.rowW w c) := by
  rw [val_main_v13_apply, val_main_v11_apply, val_main_v10_apply, val_main_v12_apply, val_main_cst_2_apply]
  have e : idx_main_v10 (ix2 c (0 : Fin 1)) = ix1 c :=
    funext fun a => Fin.ext (by match a with | ⟨0, _⟩ => rfl)
  rw [e, sumsq_w]
  rfl

/-- Row `c` of the weights divided by its guarded norm. -/
theorem unit_w (w : WT) (c : Fin 100000) (d : Fin 256) :
    val_main_v15 (F := Ideal) w (ix2 c d) = Cert.Spec.unit (Cert.Spec.rowW w c) d := by
  rw [val_main_v15_apply, val_main_v14_apply]
  have e : idx_main_v14 (ix2 c d) = ix2 c (0 : Fin 1) :=
    funext fun a => Fin.ext (by match a with | ⟨0, _⟩ => rfl | ⟨1, _⟩ => rfl)
  rw [e, nrm_w]
  rfl

/-- Entry (b, c) of the product of the two unit matrices is the cosine of row `b` of the input and row `c` of
    the weights. -/
theorem cos_apply (x : XT) (w : WT) (b : Fin 1024) (c : Fin 100000) :
    val_main_v17 (F := Ideal) x w (ix2 b c) = Cert.Spec.cosv (Cert.Spec.rowX x b) (Cert.Spec.rowW w c) := by
  rw [val_main_v17_apply]
  unfold Cert.Spec.cosv
  refine Finset.sum_congr rfl fun k _ => ?_
  have el : lidx_main_v17 (ix2 b c) k = ix2 b k :=
    funext fun a => Fin.ext (by match a with | ⟨0, _⟩ => rfl | ⟨1, _⟩ => rfl)
  have er : ridx_main_v17 (ix2 b c) k = ix2 k c :=
    funext fun a => Fin.ext (by match a with | ⟨0, _⟩ => rfl | ⟨1, _⟩ => rfl)
  have et : idx_main_v16 (ix2 k c) = ix2 c k :=
    funext fun a => Fin.ext (by match a with | ⟨0, _⟩ => rfl | ⟨1, _⟩ => rfl)
  rw [el, er, val_main_v16_apply, et, unit_x, unit_w]

/-! ## A label that is a class index -/

/-- A word below the class count is not negative as a signed integer. -/
theorem slt_zero_of_small (l : BitVec 32) (h : l.toNat < 100000) : IntOp.cmpi .slt l 0#32 = 0#1 := by
  refine eq_zero_of_ne_one fun e => ?_
  have := (StableHlo.Predicate.slt_iff_toNat (a := l) (b := 0#32) (by omega) (by decide)).1 e
  simp at this

/-- Wrapping a negative label round by the class count leaves a class index alone. -/
theorem norm_label (l : BitVec 32) (h : l.toNat < 100000) :
    Scalar.select (IntOp.cmpi .slt l 0#32) (IntOp.addi l 100000#32) l = l := by
  rw [slt_zero_of_small l h, select_zero]

/-- A class index passes the range test `0 ≤ l ≤ 99999`. -/
theorem in_range (l : BitVec 32) (h : l.toNat < 100000) :
    IntOp.andi (IntOp.cmpi .sge l 0#32) (IntOp.cmpi .sle l 99999#32) = 1#1 := by
  have h1 : IntOp.cmpi .sge l 0#32 = 1#1 :=
    (StableHlo.Predicate.sge_iff_toNat (a := l) (b := 0#32) (by omega) (by decide)).2 (by simp)
  have h2 : IntOp.cmpi .sle l 99999#32 = 1#1 :=
    (StableHlo.Predicate.sle_iff_toNat (a := l) (b := 99999#32) (by omega) (by decide)).2 (by
      show l.toNat ≤ 99999; omega)
  rw [h1, h2]; rfl

/-- A class index read as a signed integer and clamped into the class range is itself. -/
theorem clamp_label (l : BitVec 32) (h : l.toNat < 100000) : min l.toInt.toNat 99999 = l.toNat := by
  rw [StableHlo.Predicate.toInt_eq_toNat_of_lt (a := l) (by omega)]
  simp only [Int.toNat_natCast]
  omega

/-! ## The label's cosine, gathered -/

/-- The start index of row `b`: the label of row `b`. -/
theorem start_apply (lab : LT) (hlab : ∀ j, (lab j).toNat < 100000) (b : Fin 1024) :
    val_main_call0_v5 (F := Ideal) lab (ix3 b (0 : Fin 1) (0 : Fin 1)) = lab (ix1 b) := by
  rw [val_main_call0_v5_apply]
  have e5 : idx_main_call0_v5 (ix3 b (0 : Fin 1) (0 : Fin 1)) = ix2 b (0 : Fin 1) :=
    funext fun a => Fin.ext (by
      match a with
      | ⟨0, _⟩ => show ((b.val * 1 + 0) * 1 + 0) / 1 = b.val; omega
      | ⟨1, _⟩ => rfl)
  rw [e5, val_main_call0_v4_apply, val_main_call0_v1_apply, val_main_call0_v3_apply, val_main_v18_apply,
    val_main_call0_v0_apply, val_main_call0_c_apply, val_main_call0_v2_apply, val_main_call0_c_0_apply]
  have e18 : idx_main_v18 (ix2 b (0 : Fin 1)) = ix1 b :=
    funext fun a => Fin.ext (by match a with | ⟨0, _⟩ => rfl)
  rw [e18]
  exact norm_label _ (hlab _)

/-- The range test's last axis, of extent one, is the reduced one. -/
theorem reduces_d2 : S1024x1x1.Reduces [2] S1024x1 := by decide

/-- A fold over a one-element range is one application of the operation. -/
theorem fold_fin_one {β : Type} (op : β → β → β) [Std.Commutative op] [Std.Associative op] (n : Nat) (hn : n = 1)
    (init : β) (g : Fin n → β) :
    (Finset.univ : Finset (Fin n)).fold op init g = op (g ⟨0, by omega⟩) init := by
  subst hn
  show Finset.fold op init g {(0 : Fin 1)} = _
  rw [Finset.fold_singleton]
  rfl

/-- Every row's start index passes the range test. -/
theorem mask_apply (lab : LT) (hlab : ∀ j, (lab j).toNat < 100000) (b : Fin 1024) :
    val_main_call0_v12 (F := Ideal) lab (ix2 b (0 : Fin 1)) = 1#1 := by
  unfold val_main_call0_v12
  rw [Host.reduce_eq_fold_single IntOp.andi _ _ reducesTo_S1024x1x1_S1024x1_d2 reduces_d2 h_S_,
    fold_fin_one IntOp.andi (S1024x1x1.size 2) rfl]
  have el : reduces_d2.lift (ix2 b (0 : Fin 1)) ⟨0, by decide⟩ = ix3 b (0 : Fin 1) (0 : Fin 1) :=
    funext fun a => Fin.ext (by match a with | ⟨0, _⟩ => rfl | ⟨1, _⟩ => rfl | ⟨2, _⟩ => rfl)
  show IntOp.andi (val_main_call0_v11 (F := Ideal) lab (reduces_d2.lift (ix2 b (0 : Fin 1)) ⟨0, _⟩))
    (val_main_call0_c_3 (F := Ideal) _) = 1#1
  rw [el, val_main_call0_c_3_apply, val_main_call0_v11_apply, val_main_call0_v7_apply, val_main_call0_v10_apply,
    val_main_call0_v6_apply, val_main_call0_c_2_apply, val_main_call0_v9_apply, val_main_call0_v8_apply,
    val_main_call0_c_1_apply, start_apply lab hlab b, in_range _ (hlab _)]
  rfl

/-- The gather's dimension numbers. -/
abbrev gdims : GatherDims S1024x100000 S1024x1x1 S1024x1 := gather_S1024x100000_S1024x1x1_S1024x1_n_1_0_0_1_2_11

/-- The batched gather along the class axis, read at row `b`: the operand's entry in row `b` at the start index of
    row `b`, read signed and clamped into the class range. The row axis is a batching axis (start 0, the result's own
    row, no offset); the class axis is collapsed and start-indexed (the clamped start, no batch, no offset). -/
theorem gather_row {α : Type} (x : S1024x100000.Idx → α) (idx : IVec S1024x1x1 32) (b : Fin 1024) :
    Host.gather gdims x idx (ix2 b (0 : Fin 1))
      = x (ix2 b ⟨min (idx (ix3 b (0 : Fin 1) (0 : Fin 1))).toInt.toNat 99999, by omega⟩) := by
  unfold Host.gather
  congr 1
  funext a
  refine Fin.ext ?_
  match a with
  | ⟨0, _⟩ =>
    show gdims.start (ix2 b (0 : Fin 1)) idx 0 + gdims.batchCoord (ix2 b (0 : Fin 1)) 0
      + gdims.offCoord (ix2 b (0 : Fin 1)) 0 = b.val
    have hm : (0 : Fin S1024x100000.rank) ∈ gdims.operandBatchingDims := List.mem_singleton.mpr rfl
    rw [GatherDims.start_batching _ _ _ _ hm,
      GatherDims.offCoord_eq_zero _ _ _ (fun h => ((GatherDims.mem_sKept _ _).mp h).2 hm)]
    simp only [Nat.zero_add, Nat.add_zero]
    unfold GatherDims.batchCoord
    rw [dif_pos hm]
    rfl
  | ⟨1, _⟩ =>
    show gdims.start (ix2 b (0 : Fin 1)) idx 1 + gdims.batchCoord (ix2 b (0 : Fin 1)) 1
      + gdims.offCoord (ix2 b (0 : Fin 1)) 1 = min (idx (ix3 b (0 : Fin 1) (0 : Fin 1))).toInt.toNat 99999
    have hc : (1 : Fin S1024x100000.rank) ∈ gdims.collapsedSliceDims := List.mem_singleton.mpr rfl
    have hs : (1 : Fin S1024x100000.rank) ∈ gdims.startIndexMap := List.mem_singleton.mpr rfl
    rw [GatherDims.batchCoord_eq_zero _ _ _ (by decide),
      GatherDims.offCoord_eq_zero _ _ _ (fun h => ((GatherDims.mem_sKept _ _).mp h).1 hc)]
    simp only [Nat.add_zero]
    unfold GatherDims.start
    rw [dif_pos hs]
    have hsi : gdims.siIdx (ix2 b (0 : Fin 1)) ⟨List.idxOf (1 : Fin S1024x100000.rank) gdims.startIndexMap,
        List.idxOf_lt_length_iff.2 hs⟩ = ix3 b (0 : Fin 1) (0 : Fin 1) := by
      funext c; refine Fin.ext ?_
      match c with
      | ⟨0, _⟩ => rfl
      | ⟨1, _⟩ => rfl
      | ⟨2, _⟩ => rfl
    rw [hsi]
    rfl

/-- The gather at a start index that clamps to class `c` reads the operand's entry (b, c). -/
theorem gather_label {α : Type} (x : S1024x100000.Idx → α) (idx : IVec S1024x1x1 32) (b : Fin 1024) (c : Fin 100000)
    (h : min (idx (ix3 b (0 : Fin 1) (0 : Fin 1))).toInt.toNat 99999 = c.val) :
    Host.gather gdims x idx (ix2 b (0 : Fin 1)) = x (ix2 b c) := by
  rw [gather_row]
  congr 2
  exact Fin.ext h

/-- Under the label range the specification's class of row `b` is the label word's value. -/
theorem labC_val (lab : LT) (hlab : ∀ j, (lab j).toNat < 100000) (b : Fin 1024) :
    (Cert.Spec.labC lab b).val = (lab (ix1 b)).toNat := Nat.mod_eq_of_lt (hlab _)

/-- The gathered target: the cosine of row `b` of the input and the weight row of its label. -/
theorem tgt_apply (x : XT) (lab : LT) (w : WT) (hlab : ∀ j, (lab j).toNat < 100000) (b : Fin 1024) :
    val_main_v20 (F := Ideal) x lab w (ix1 b)
      = Cert.Spec.cosv (Cert.Spec.rowX x b) (Cert.Spec.rowW w (Cert.Spec.labC lab b)) := by
  rw [val_main_v20_apply]
  have e20 : idx_main_v20 (ix1 b) = ix2 b (0 : Fin 1) :=
    funext fun a => Fin.ext (by
      match a with
      | ⟨0, _⟩ => show b.val / 1 = b.val; omega
      | ⟨1, _⟩ => rfl)
  rw [e20, val_main_v19_apply, mask_apply lab hlab b, select_one]
  unfold val_main_call0_v13
  rw [gather_label _ _ b (Cert.Spec.labC lab b) (by
    rw [start_apply lab hlab b, clamp_label _ (hlab _), labC_val lab hlab b]), cos_apply]

/-- The margin applied to the target. -/
theorem newtgt_apply (x : XT) (lab : LT) (w : WT) (hlab : ∀ j, (lab j).toNat < 100000) (b : Fin 1024) :
    val_main_v32 (F := Ideal) x lab w (ix1 b)
      = Cert.Spec.margin (Cert.Spec.cosv (Cert.Spec.rowX x b) (Cert.Spec.rowW w (Cert.Spec.labC lab b))) := by
  rw [val_main_v32_apply, val_main_v31_apply, val_main_v29_apply, val_main_v26_apply, val_main_v28_apply,
    val_main_v24_apply, val_main_v23_apply, val_main_v21_apply, val_main_v22_apply, val_main_v25_apply,
    val_main_v27_apply, val_main_v30_apply, val_main_cst_3_apply, val_main_cst_4_apply, val_main_cst_5_apply,
    val_main_cst_6_apply, tgt_apply x lab w hlab b]
  simp only [Ideal.ofBits_def, Ideal.ofBits_zero_f32, Ideal.mulf_def, Ideal.subf_def, Ideal.hostUnary_sqrt_def,
    Ideal.cmpf_def]
  rfl

/-! ## The index pairs -/

/-- Wrapping a negative word round by any count leaves a small non-negative word alone. -/
theorem norm_word (l m : BitVec 32) (h : l.toNat < 100000) :
    Scalar.select (IntOp.cmpi .slt l 0#32) (IntOp.addi l m) l = l := by
  rw [slt_zero_of_small l h, select_zero]

/-- The first entry of index pair `k` is the row number `k`. -/
theorem pair_row (lab : LT) (k : Fin 1024) :
    val_main_v46 (F := Ideal) lab (ix2 k (0 : Fin 2)) = BitVec.ofNat 32 k.val := by
  unfold val_main_v46
  rw [concatenate_pair_apply_left (1 : Fin S1024x2.rank) _ _ concatenates_S1024x1_S1024x1_S1024x2_d1
    (ix2 k (0 : Fin 2)) rfl (ix2 k (0 : Fin 1)) (fun a => by match a with | ⟨0, _⟩ => rfl | ⟨1, _⟩ => rfl)]
  rw [val_main_v44_apply]
  have e : idx_main_v44 (ix2 k (0 : Fin 1)) = ix1 k :=
    funext fun a => Fin.ext (by match a with | ⟨0, _⟩ => rfl)
  rw [e, val_main_v38_apply, val_main_v35_apply, val_main_v37_apply, val_main_v33_apply, val_main_v34_apply,
    val_main_c_apply]
  exact norm_word _ _ (by
    show (BitVec.ofNat 32 k.val).toNat < 100000
    rw [BitVec.toNat_ofNat]; have := k.isLt; omega)

/-- The second entry of index pair `k` is the label of row `k`. -/
theorem pair_col (lab : LT) (hlab : ∀ j, (lab j).toNat < 100000) (k : Fin 1024) :
    val_main_v46 (F := Ideal) lab (ix2 k (1 : Fin 2)) = lab (ix1 k) := by
  unfold val_main_v46
  rw [concatenate_pair_apply_right (1 : Fin S1024x2.rank) _ _ concatenates_S1024x1_S1024x1_S1024x2_d1
    (ix2 k (1 : Fin 2)) rfl rfl (ix2 k (0 : Fin 1))
    (fun a ha => by
      match a with
      | ⟨0, _⟩ => rfl
      | ⟨1, _⟩ => exact absurd rfl ha)
    rfl]
  rw [val_main_v45_apply]
  have e : idx_main_v45 (ix2 k (0 : Fin 1)) = ix1 k :=
    funext fun a => Fin.ext (by match a with | ⟨0, _⟩ => rfl)
  rw [e, val_main_v43_apply, val_main_v40_apply, val_main_v42_apply, val_main_v39_apply, val_main_c_8_apply]
  exact norm_word _ _ (hlab _)

/-! ## The overwriting scatter at (row, label) pairs -/

/-- The scatter's dimension numbers. -/
abbrev sdims : ScatterDims S1024x100000 S1024x2 S1024 := scatter_S1024x100000_S1024x2_S1024_n_01_01_1

/-- Both operand axes are inserted window axes: an update element has no window coordinate. -/
theorem sc_window (j : S1024.Idx) (a : Fin S1024x100000.rank) : sdims.window j a = 0 := by
  have hk : sdims.sKept = [] := by decide
  unfold ScatterDims.window
  rw [dif_neg (by rw [hk]; exact List.not_mem_nil)]

/-- Update `k`'s start on the row axis is the first entry of index pair `k`, read signed. -/
theorem sc_start0 (k : Fin 1024) (idx : IVec S1024x2 32) :
    sdims.start (ix1 k) idx 0 = (idx (ix2 k (0 : Fin 2))).toInt := by
  have hm : (0 : Fin S1024x100000.rank) ∈ sdims.scatterDimsToOperandDims := by decide
  unfold ScatterDims.start
  rw [dif_pos hm]
  have hsi : sdims.siIdx (ix1 k) ⟨List.idxOf (0 : Fin S1024x100000.rank) sdims.scatterDimsToOperandDims,
      List.idxOf_lt_length_iff.2 hm⟩ = ix2 k (0 : Fin 2) := by
    funext c; refine Fin.ext ?_
    match c with
    | ⟨0, _⟩ => rfl
    | ⟨1, _⟩ => rfl
  rw [hsi]

/-- Update `k`'s start on the class axis is the second entry of index pair `k`, read signed. -/
theorem sc_start1 (k : Fin 1024) (idx : IVec S1024x2 32) :
    sdims.start (ix1 k) idx 1 = (idx (ix2 k (1 : Fin 2))).toInt := by
  have hm : (1 : Fin S1024x100000.rank) ∈ sdims.scatterDimsToOperandDims := by decide
  unfold ScatterDims.start
  rw [dif_pos hm]
  have hsi : sdims.siIdx (ix1 k) ⟨List.idxOf (1 : Fin S1024x100000.rank) sdims.scatterDimsToOperandDims,
      List.idxOf_lt_length_iff.2 hm⟩ = ix2 k (1 : Fin 2) := by
    funext c; refine Fin.ext ?_
    match c with
    | ⟨0, _⟩ => rfl
    | ⟨1, _⟩ => rfl
  rw [hsi]

/-- An update that lands, lands at the entry its index pair names. -/
theorem sc_landing (k : Fin 1024) (idx : IVec S1024x2 32) (i : S1024x100000.Idx)
    (h : sdims.resultIdx? (ix1 k) idx = some i) :
    ((i 0).val : ℤ) = (idx (ix2 k (0 : Fin 2))).toInt ∧ ((i 1).val : ℤ) = (idx (ix2 k (1 : Fin 2))).toInt := by
  unfold ScatterDims.resultIdx? at h
  split at h
  · rename_i hall
    cases h
    have h0 := hall 0
    have h1 := hall 1
    rw [sc_start0, sc_window, Nat.cast_zero, add_zero] at h0
    rw [sc_start1, sc_window, Nat.cast_zero, add_zero] at h1
    constructor
    · show (((sdims.start (ix1 k) idx 0 + (sdims.window (ix1 k) 0 : ℤ)).toNat : ℕ) : ℤ) = _
      rw [sc_start0, sc_window, Nat.cast_zero, add_zero]; omega
    · show (((sdims.start (ix1 k) idx 1 + (sdims.window (ix1 k) 1 : ℤ)).toNat : ℕ) : ℤ) = _
      rw [sc_start1, sc_window, Nat.cast_zero, add_zero]; omega
  · cases h

/-- An update whose index pair names an entry of the operand lands there. -/
theorem sc_landing_some (k : Fin 1024) (idx : IVec S1024x2 32) (r : Fin 1024) (c : Fin 100000)
    (h0 : (idx (ix2 k (0 : Fin 2))).toInt = (r.val : ℤ)) (h1 : (idx (ix2 k (1 : Fin 2))).toInt = (c.val : ℤ)) :
    sdims.resultIdx? (ix1 k) idx = some (ix2 r c) := by
  have hall : ∀ a, 0 ≤ sdims.start (ix1 k) idx a + sdims.window (ix1 k) a ∧
      sdims.start (ix1 k) idx a + sdims.window (ix1 k) a < S1024x100000.size a := by
    intro a
    match a with
    | ⟨0, _⟩ =>
      show 0 ≤ sdims.start (ix1 k) idx 0 + (sdims.window (ix1 k) 0 : ℤ) ∧
        sdims.start (ix1 k) idx 0 + (sdims.window (ix1 k) 0 : ℤ) < ((1024 : ℕ) : ℤ)
      rw [sc_start0, sc_window, h0]; have := r.isLt; omega
    | ⟨1, _⟩ =>
      show 0 ≤ sdims.start (ix1 k) idx 1 + (sdims.window (ix1 k) 1 : ℤ) ∧
        sdims.start (ix1 k) idx 1 + (sdims.window (ix1 k) 1 : ℤ) < ((100000 : ℕ) : ℤ)
      rw [sc_start1, sc_window, h1]; have := c.isLt; omega
  unfold ScatterDims.resultIdx?
  rw [dif_pos hall]
  congr 1
  funext a
  refine Fin.ext ?_
  match a with
  | ⟨0, _⟩ =>
    show (sdims.start (ix1 k) idx 0 + (sdims.window (ix1 k) 0 : ℤ)).toNat = r.val
    rw [sc_start0, sc_window, h0]; omega
  | ⟨1, _⟩ =>
    show (sdims.start (ix1 k) idx 1 + (sdims.window (ix1 k) 1 : ℤ)).toNat = c.val
    rw [sc_start1, sc_window, h1]; omega

/-- THE SCATTER READ AT (b, c). When index pair `k` is (k, L k) for every `k`, the only update that lands in row `b` is
    update `b`, at class `L b`: the result there is update `b`, and everywhere else the operand's own entry. -/
theorem scatter_read {α : Type} (x : S1024x100000.Idx → α) (idx : IVec S1024x2 32) (upd : S1024.Idx → α)
    (L : Fin 1024 → Fin 100000)
    (hrow : ∀ k : Fin 1024, (idx (ix2 k (0 : Fin 2))).toInt = (k.val : ℤ))
    (hcol : ∀ k : Fin 1024, (idx (ix2 k (1 : Fin 2))).toInt = ((L k).val : ℤ))
    (b : Fin 1024) (c : Fin 100000) :
    Host.scatter sdims (fun _ v => v) x idx upd (ix2 b c) = if L b = c then upd (ix1 b) else x (ix2 b c) := by
  unfold Host.scatter
  by_cases hL : L b = c
  · rw [if_pos hL]
    refine Cert.Lib.ScatterSet.foldl_hit _ (ix2 b c) (upd (ix1 b)) (S1024.rowMajor (ix1 b)) ?_ _ x
      (List.nodup_finRange _) (List.mem_finRange _) ?_
    · intro r
      simp only [Equiv.symm_apply_apply]
      rw [sc_landing_some b idx b c (hrow b) (by rw [← hL]; exact hcol b)]
      show (if ix2 b c = ix2 b c then upd (ix1 b) else r (ix2 b c)) = upd (ix1 b)
      rw [if_pos rfl]
    · intro n _ hne r
      generalize hjj : S1024.rowMajor.symm n = jj
      obtain ⟨k, rfl⟩ : ∃ k : Fin 1024, jj = ix1 k := ⟨jj 0, eq_ix1 jj⟩
      cases hres : sdims.resultIdx? (ix1 k) idx with
      | none => rfl
      | some i =>
        show (if ix2 b c = i then upd (ix1 k) else r (ix2 b c)) = r (ix2 b c)
        rw [if_neg]
        intro e
        obtain ⟨e0, _⟩ := sc_landing k idx i hres
        rw [← e, hrow] at e0
        apply hne
        rw [← Equiv.symm_apply_eq, hjj]
        congr 1
        exact Fin.ext (by have : (b.val : ℤ) = (k.val : ℤ) := e0; omega)
  · rw [if_neg hL]
    refine Cert.Lib.ScatterSet.foldl_miss _ (ix2 b c) _ x ?_
    intro n _ r
    generalize hjj : S1024.rowMajor.symm n = jj
    obtain ⟨k, rfl⟩ : ∃ k : Fin 1024, jj = ix1 k := ⟨jj 0, eq_ix1 jj⟩
    cases hres : sdims.resultIdx? (ix1 k) idx with
    | none => rfl
    | some i =>
      show (if ix2 b c = i then upd (ix1 k) else r (ix2 b c)) = r (ix2 b c)
      rw [if_neg]
      intro e
      obtain ⟨e0, e1⟩ := sc_landing k idx i hres
      rw [← e, hrow] at e0
      rw [← e, hcol] at e1
      have hb : k = b := Fin.ext (by have : (b.val : ℤ) = (k.val : ℤ) := e0; omega)
      rw [hb] at e1
      exact hL (Fin.ext (by have : (c.val : ℤ) = ((L b).val : ℤ) := e1; omega))

/-! ## The result -/

/-- With every label a class index, the reference's last stage is the specification's array. -/
theorem ref_eq (x : (⟨S1024x256, .f32⟩ : BufTy).Contents (Elt Ideal)) (lab : (⟨S1024, .i32⟩ : BufTy).Contents (Elt Ideal))
    (w : (⟨S100000x256, .f32⟩ : BufTy).Contents (Elt Ideal)) (hlab : ∀ j, (lab j).toNat < 100000) :
    val_main_v49 (F := Ideal) x lab w = Cert.Spec.Gref x lab w := by
  funext i
  obtain ⟨b, c, rfl⟩ : ∃ (b : Fin 1024) (c : Fin 100000), i = ix2 b c := ⟨i 0, i 1, eq_ix2 i⟩
  rw [val_main_v49_apply, val_main_v48_apply, val_main_cst_10_apply]
  unfold val_main_v47
  rw [scatter_read _ _ _ (Cert.Spec.labC lab)
    (fun k => by
      rw [pair_row lab k]
      exact StableHlo.Predicate.toInt_ofNat_small k.val (by have := k.isLt; omega))
    (fun k => by
      rw [pair_col lab hlab k, StableHlo.Predicate.toInt_eq_toNat_of_lt (by have := hlab (ix1 k); omega),
        labC_val lab hlab k])
    b c, newtgt_apply x lab w hlab b, cos_apply]
  show FloatOps.mulf (F := Ideal) (FloatOps.ofBits .f32 0x42480000#32) _ = Cert.Spec.refEntry
    (decide ((Cert.Spec.labC lab b).val = c.val)) (Cert.Spec.rowX x b) (Cert.Spec.rowW w c)
    (Cert.Spec.rowW w (Cert.Spec.labC lab b))
  unfold Cert.Spec.refEntry
  by_cases h : Cert.Spec.labC lab b = c
  · rw [if_pos h, if_pos (decide_eq_true (congrArg Fin.val h))]; rfl
  · rw [if_neg h, if_neg (by simpa using fun e => h (Fin.ext e))]; rfl

end Cert.RefValue

end
-- ==== Proof.Algebra.lean ====
/-
  The algebra joining the two readings of one logit: on finite rows the kernel's entry is the reference's.
  Three facts carry it. Distributivity: `Σ_d (â_d · s) · v_d = s · Σ_d â_d · v_d` for real terms.
  The guard under the root: for `σ ≥ 0` and `ε > 0`, `(max(σ, ε²))^(-1/2) = 1 / max(√σ, ε)`, the square root being monotone
  with `√(ε²) = ε`. And the Cauchy–Schwarz inequality: unit rows `â = a/‖a‖ε`, `û = u/‖u‖ε` have `Σ â² ≤ 1`, `Σ û² ≤ 1`,
  so `t = Σ â_d û_d` has `t² ≤ 1` and `max(1 − t², 0) = 1 − t²`.
-/
import proofs.«427160_j39676907888373_3_alg».proof.Proof.Spec
import Mathlib.Algebra.Order.BigOperators.Ring.Finset
import Mathlib.Analysis.Real.Sqrt

noncomputable section

open scoped BigOperators

namespace Cert.Spec

open Idealize.ShloMosaic Idealize.ShloMosaic.ValueIdx

/-! ### The constants as reals -/

/-- The guard `ε` as a real number. -/
def epsR : ℝ := 2305843 / 2 ^ 61

theorem epsR_pos : 0 < epsR := by unfold epsR; positivity

theorem eps_eq : eps = (epsR : EReal) := by
  simp [eps, epsR, Ideal.ofBits, Ideal.ieee, -EReal.coe_mul]; norm_num

theorem epsSq_eq : epsSq = ((epsR * epsR : ℝ) : EReal) := by
  unfold epsSq epsR; congr 1; norm_num

theorem one_eq : one = ((1 : ℝ) : EReal) := by
  simp [one, Ideal.ofBits, Ideal.ieee, -EReal.coe_mul]; norm_num

theorem scale_real : ∃ r : ℝ, scale = (r : EReal) := by
  refine ⟨50, ?_⟩
  simp [scale, Ideal.ofBits, Ideal.ieee, -EReal.coe_mul]; norm_num

theorem cosM_real : ∃ r : ℝ, cosM = (r : EReal) := by
  refine ⟨14723392 / 2 ^ 24, ?_⟩
  simp [cosM, Ideal.ofBits, Ideal.ieee, -EReal.coe_mul]; norm_num

theorem sinM_real : ∃ r : ℝ, sinM = (r : EReal) := by
  refine ⟨16086852 / 2 ^ 25, ?_⟩
  simp [sinM, Ideal.ofBits, Ideal.ieee, -EReal.coe_mul]; norm_num

/-! ### Coercion through finite sums and maxima -/

/-- The coercion of a finite sum of reals is the sum of the coercions. -/
theorem coe_finsum {ι : Type} (s : Finset ι) (f : ι → ℝ) :
    ((∑ d ∈ s, f d : ℝ) : EReal) = ∑ d ∈ s, (f d : EReal) := by
  classical
  induction s using Finset.induction_on with
  | empty => simp
  | insert a s ha ih => rw [Finset.sum_insert ha, Finset.sum_insert ha, EReal.coe_add, ih]

/-- The coercion is monotone, so it commutes with `max`. -/
theorem coe_max (x y : ℝ) : ((max x y : ℝ) : EReal) = max (x : EReal) (y : EReal) :=
  EReal.coe_strictMono.monotone.map_max

/-! ### Real rows -/

/-- `Σ_d v_d²` over the reals. -/
def sumSqR (v : Fin 256 → ℝ) : ℝ := ∑ d : Fin 256, v d * v d
/-- The guarded norm over the reals. -/
def nrmR (v : Fin 256 → ℝ) : ℝ := max (Real.sqrt (sumSqR v)) epsR
/-- The cosine over the reals. -/
def cosR (a u : Fin 256 → ℝ) : ℝ := ∑ d : Fin 256, (a d / nrmR a) * (u d / nrmR u)

theorem sumSqR_nonneg (v : Fin 256 → ℝ) : 0 ≤ sumSqR v :=
  Finset.sum_nonneg fun d _ => mul_self_nonneg (v d)

theorem nrmR_pos (v : Fin 256 → ℝ) : 0 < nrmR v := lt_max_of_lt_right epsR_pos

theorem sumSq_coe (v : Fin 256 → ℝ) : sumSq (fun d => (v d : EReal)) = (sumSqR v : EReal) := by
  unfold sumSq sumSqR
  rw [coe_finsum]
  exact Finset.sum_congr rfl fun d _ => (EReal.coe_mul _ _).symm

theorem nrm_coe (v : Fin 256 → ℝ) : nrm (fun d => (v d : EReal)) = (nrmR v : EReal) := by
  unfold nrm nrmR
  rw [sumSq_coe, Ideal.sqrt_coe, if_neg (not_lt.2 (sumSqR_nonneg v)), eps_eq, coe_max]

theorem unit_coe (v : Fin 256 → ℝ) (d : Fin 256) :
    unit (fun d => (v d : EReal)) d = ((v d / nrmR v : ℝ) : EReal) := by
  unfold unit
  rw [nrm_coe, Ideal.div_coe (nrmR_pos v).ne', ← EReal.coe_mul, mul_one_div]

theorem cosv_coe (a u : Fin 256 → ℝ) :
    cosv (fun d => (a d : EReal)) (fun d => (u d : EReal)) = (cosR a u : EReal) := by
  unfold cosv cosR
  rw [coe_finsum]
  refine Finset.sum_congr rfl fun d _ => ?_
  rw [unit_coe, unit_coe, EReal.coe_mul]

/-! ### The guard under the root -/

/-- `√(max(σ, ε²)) = max(√σ, ε)`: the square root is monotone and `√(ε²) = ε` for `ε ≥ 0`. -/
theorem sqrt_guard (v : Fin 256 → ℝ) : Real.sqrt (max (sumSqR v) (epsR * epsR)) = nrmR v := by
  unfold nrmR
  rw [Real.sqrt_monotone.map_max, Real.sqrt_mul_self epsR_pos.le]

theorem rsqrt_guard (v : Fin 256 → ℝ) :
    Ideal.rsqrt (max (sumSq (fun d => (v d : EReal))) epsSq) = ((1 / nrmR v : ℝ) : EReal) := by
  have hpos : 0 < max (sumSqR v) (epsR * epsR) := lt_max_of_lt_right (mul_pos epsR_pos epsR_pos)
  rw [sumSq_coe, epsSq_eq, ← coe_max, Ideal.rsqrt_coe, if_neg (not_lt.2 hpos.le), if_neg hpos.ne', sqrt_guard,
    one_div]

/-! ### The Cauchy–Schwarz bound -/

/-- A unit row has `Σ â² ≤ 1`: `Σ v² = (√Σ v²)² ≤ (max(√Σ v², ε))²`. -/
theorem unit_sq_le_one (v : Fin 256 → ℝ) : ∑ d : Fin 256, (v d / nrmR v) ^ 2 ≤ 1 := by
  have hn := nrmR_pos v
  have h1 : ∑ d : Fin 256, (v d / nrmR v) ^ 2 = sumSqR v / nrmR v ^ 2 := by
    unfold sumSqR
    rw [div_eq_mul_inv, Finset.sum_mul]
    refine Finset.sum_congr rfl fun d _ => ?_
    rw [div_pow, div_eq_mul_inv, sq (v d)]
  have h2 : sumSqR v ≤ nrmR v ^ 2 := by
    calc sumSqR v = Real.sqrt (sumSqR v) ^ 2 := (Real.sq_sqrt (sumSqR_nonneg v)).symm
      _ ≤ nrmR v ^ 2 := pow_le_pow_left₀ (Real.sqrt_nonneg _) (le_max_left _ _) 2
  rw [h1, div_le_one (pow_pos hn 2)]
  exact h2

/-- The cosine of two rows has square at most one. -/
theorem cosR_sq_le_one (a u : Fin 256 → ℝ) : cosR a u * cosR a u ≤ 1 := by
  have h := Finset.sum_mul_sq_le_sq_mul_sq Finset.univ (fun d : Fin 256 => a d / nrmR a) (fun d => u d / nrmR u)
  have ha := unit_sq_le_one a
  have hu := unit_sq_le_one u
  have ha0 : 0 ≤ ∑ d : Fin 256, (a d / nrmR a) ^ 2 := Finset.sum_nonneg fun d _ => sq_nonneg _
  calc cosR a u * cosR a u = cosR a u ^ 2 := (sq _).symm
    _ ≤ (∑ d : Fin 256, (a d / nrmR a) ^ 2) * ∑ d : Fin 256, (u d / nrmR u) ^ 2 := h
    _ ≤ 1 * 1 := mul_le_mul ha hu (Finset.sum_nonneg fun d _ => sq_nonneg _) zero_le_one
    _ = 1 := one_mul 1

/-- With `t² ≤ 1` the clipped radicand is the radicand, so the two margins agree. -/
theorem marginK_eq (t : ℝ) (ht : t * t ≤ 1) : marginK (t : EReal) = margin (t : EReal) := by
  unfold marginK margin
  have h : (0 : EReal) ≤ one - (t : EReal) * (t : EReal) := by
    rw [one_eq, ← EReal.coe_mul, ← EReal.coe_sub]
    exact EReal.coe_nonneg.2 (sub_nonneg.2 ht)
  rw [max_eq_left h]

/-! ### The two entries -/

/-- On real rows the two entries are equal. -/
theorem entry_eq_real (hit : Bool) (a u ut : Fin 256 → ℝ) :
    kerEntry hit (fun d => (a d : EReal)) (fun d => (u d : EReal)) (fun d => (ut d : EReal))
      = refEntry hit (fun d => (a d : EReal)) (fun d => (u d : EReal)) (fun d => (ut d : EReal)) := by
  obtain ⟨s, hs⟩ := scale_real
  cases hit with
  | true =>
    simp only [kerEntry, refEntry, if_true]
    rw [cosv_coe, marginK_eq _ (cosR_sq_le_one a ut)]
  | false =>
    simp only [kerEntry, refEntry, Bool.false_eq_true, if_false]
    rw [cosv_coe, rsqrt_guard, hs, ← EReal.coe_mul]
    have hterm : ∀ d : Fin 256,
        (unit (fun d => (a d : EReal)) d * (s : EReal)) * ((u d : EReal) * ((1 / nrmR u : ℝ) : EReal))
          = (((a d / nrmR a * s) * (u d * (1 / nrmR u)) : ℝ) : EReal) := by
      intro d
      rw [unit_coe, ← EReal.coe_mul, ← EReal.coe_mul, ← EReal.coe_mul]
    rw [Finset.sum_congr rfl fun d _ => hterm d, ← coe_finsum]
    congr 1
    unfold cosR
    rw [Finset.mul_sum]
    refine Finset.sum_congr rfl fun d _ => ?_
    ring

/-- On finite rows the two entries are equal. -/
theorem entry_eq (hit : Bool) (a u ut : Row) (ha : ∀ d, ∃ r : ℝ, a d = (r : EReal)) (hu : ∀ d, ∃ r : ℝ, u d = (r : EReal))
    (hut : ∀ d, ∃ r : ℝ, ut d = (r : EReal)) : kerEntry hit a u ut = refEntry hit a u ut := by
  choose a' ha' using ha
  choose u' hu' using hu
  choose ut' hut' using hut
  obtain rfl : a = fun d => (a' d : EReal) := funext ha'
  obtain rfl : u = fun d => (u' d : EReal) := funext hu'
  obtain rfl : ut = fun d => (ut' d : EReal) := funext hut'
  exact entry_eq_real hit a' u' ut'

/-- On finite inputs the two arrays are equal. -/
theorem Gker_eq_Gref (x : SX.Idx → EReal) (lab : SL.Idx → BitVec 32) (w : SW.Idx → EReal)
    (hx : ∀ i, ∃ r : ℝ, x i = (r : EReal)) (hw : ∀ i, ∃ r : ℝ, w i = (r : EReal)) : Gker x lab w = Gref x lab w :=
  funext fun i => entry_eq _ _ _ _ (fun d => hx _) (fun d => hw _) (fun d => hw _)

end Cert.Spec

end
-- ==== Proof.lean ====
/-
  The additive-angular-margin logits: a Pallas kernel that streams the class weights in 66 tiles of 1536 rows,
  normalises each tile, multiplies it with the scaled unit input and overwrites the label's column with a target value
  computed once per row outside the kernel, against the plain reference that normalises both matrices, multiplies
  them, applies the margin at the label and scales.

  The five claims. The word-level kernel and its idealization run to the end, fault nowhere and leave their arguments
  unchanged (the frames: the pipeline's launch with the body's obligation, the last tile of the weights and of the
  result overhanging their arrays). The reference's frame is its run. The idealization's one rewrite names the
  kernel's guard under the reciprocal square root, the binary32 word nearest 1e-24, as the exact square of the
  reference's guard ε, the binary32 word nearest 1e-12 — which is how the kernel's source writes it. And over the
  extended reals, for finite inputs and labels that are class indices, the two programs compute the same array:
  the kernel's result array is `Gker` of the arguments (its blocks pieced together), the reference's is `Gref`, and
  the two are equal entry by entry by distributivity, the monotone square root and the Cauchy–Schwarz inequality.
-/
import proofs.«427160_j39676907888373_3_alg».proof.Defs
import proofs.«427160_j39676907888373_3_alg».proof.Proof.Gen.Kernel
import proofs.«427160_j39676907888373_3_alg».proof.Proof.Gen.KernelIdeal
import proofs.«427160_j39676907888373_3_alg».proof.Proof.Gen.ReferenceIdeal
import proofs.«427160_j39676907888373_3_alg».proof.Proof.Gen.Pre_finite_inputs
import proofs.«427160_j39676907888373_3_alg».proof.Proof.K.Frame
import proofs.«427160_j39676907888373_3_alg».proof.Proof.KI.Frame
import proofs.«427160_j39676907888373_3_alg».proof.Proof.KI.Run
import proofs.«427160_j39676907888373_3_alg».proof.Proof.Ref.Gen
import proofs.«427160_j39676907888373_3_alg».proof.Proof.Ref.Value
import proofs.«427160_j39676907888373_3_alg».proof.Proof.Algebra
import Idealize.ShloMosaic.Adequacy
import Idealize.ShloMosaic.Init
import Idealize.ShloMosaic.PureOps.IdealRules

noncomputable section

namespace Cert.Proof

open Idealize.ShloMosaic Idealize.SL.Sem

/-- The word-level kernel's frame. -/
theorem frame_p : Cert.frame_Kernel := fun m ρ _ => Cert.Kernel.FrameData.frame m ρ

/-- The idealized kernel's frame. -/
theorem frame_pi : Cert.frame_KernelIdeal := fun m ρ _ => Cert.KernelIdeal.FrameData.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the guard's name denotes ε², and the printed constant is that value. -/
theorem preserves : Cert.preserves_Kernel_KernelIdeal :=
  IdealRules.named_const.statement Cert.KernelIdeal.κ "eps_sq" .f32 0x179ABE15#32
    ((5316911940649 / 5316911983139663491615228241121378304 : ℝ) : EReal) rfl

/-- Over the extended reals both programs end with the same result array: the kernel's `Gker` of the arguments, the
    reference's `Gref` of the same arguments, equal on finite inputs. -/
theorem algebraic : Cert.algebraic_KernelIdeal_ReferenceIdeal := by
  intro m ρ m' ρ' hpre hagree
  refine ⟨fun c => Cert.Spec.Gker (Cert.KernelIdeal.KValue.argX m c) (Cert.KernelIdeal.KValue.argL m c) (Cert.KernelIdeal.KValue.argW m c),
    Cert.KernelIdeal.KRun.run m ρ hpre, ?_⟩
  refine (θ_run Cert.ReferenceIdeal.defs _ _).mono (fun _ h c => ⟨(h c).1.trans ?_, (h c).2⟩)
    (Cert.ReferenceIdeal.Value.run (F := Ideal) m' ρ')
  obtain ⟨hx, hl, hw⟩ := Cert.KernelIdeal.KRun.pre_facts m hpre c
  rw [Cert.ReferenceIdeal.Read.val_main_v49_eq, (hagree c).1, (hagree c).2.1, (hagree c).2.2]
  exact (Cert.RefValue.ref_eq _ _ _ hl).trans (Cert.Spec.Gker_eq_Gref _ _ _ hx hw).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
